-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x80x385x513 : Shape := ⟨4, ![8, 80, 385, 513]⟩
abbrev S8x385x513 : Shape := ⟨3, ![8, 385, 513]⟩
abbrev S_ : Shape := ⟨0, ![]⟩

class Facts : Prop where
  bcast_S_S8x80x385x513 : S_.BroadcastsInDim S8x80x385x513 (![] : Fin 0 → Fin S8x80x385x513.rank)
  reducesTo_S8x80x385x513_S_d0_1_2_3 : S8x80x385x513.ReducesTo [0, 1, 2, 3] S_
  h_S_ : 0 < S_.numel

variable [Facts]

def fn_part1 {F : FTy → Type} [FloatOps F] (main_v9 : IVec S_ 1) (main_v15 : IVec S8x80x385x513 1) : IVec S_ 1 :=
  let main_c_6 : IVec S_ 1 := constantI S_ 1 1#1
  let main_v16 : IVec S_ 1 := (fun x v => Host.reduce IntOp.andi x v reducesTo_S8x80x385x513_S_d0_1_2_3 h_S_) main_v15 main_c_6
  let main_v17 : IVec S_ 1 := andi main_v9 main_v16
  main_v17

def fn {F : FTy → Type} [FloatOps F] (main_arg0 : FVec F S8x80x385x513 .f32) (main_arg1 : IVec S8x385x513 32) : IVec S_ 1 :=
  let main_v0 : FVec F S8x80x385x513 .f32 := Host.absf main_arg0
  let main_cst : FVec F S_ .f32 := constant S_ .f32 0x7F800000#32
  let main_v1 : FVec F S8x80x385x513 .f32 := broadcastInDim S8x80x385x513 ![] bcast_S_S8x80x385x513 main_cst
  let main_v2 : IVec S8x80x385x513 1 := cmpf .olt main_v0 main_v1
  let main_c : IVec S_ 1 := constantI S_ 1 1#1
  let main_v3 : IVec S_ 1 := (fun x v => Host.reduce IntOp.andi x v reducesTo_S8x80x385x513_S_d0_1_2_3 h_S_) main_v2 main_c
  let main_cst_0 : FVec F S_ .f32 := constant S_ .f32 0x2D2FEBFF#32
  let main_v4 : FVec F S8x80x385x513 .f32 := broadcastInDim S8x80x385x513 ![] bcast_S_S8x80x385x513 main_cst_0
  let main_v5 : FVec F S8x80x385x513 .f32 := addf main_arg0 main_v4
  let main_cst_1 : FVec F S_ .f32 := constant S_ .f32 0x00000000#32
  let main_v6 : FVec F S8x80x385x513 .f32 := broadcastInDim S8x80x385x513 ![] bcast_S_S8x80x385x513 main_cst_1
  let main_v7 : IVec S8x80x385x513 1 := cmpf .ogt main_v5 main_v6
  let main_c_2 : IVec S_ 1 := constantI S_ 1 1#1
  let main_v8 : IVec S_ 1 := (fun x v => Host.reduce IntOp.andi x v reducesTo_S8x80x385x513_S_d0_1_2_3 h_S_) main_v7 main_c_2
  let main_v9 : IVec S_ 1 := andi main_v3 main_v8
  let main_cst_3 : FVec F S_ .f32 := constant S_ .f32 0x3F800000#32
  let main_v10 : FVec F S8x80x385x513 .f32 := broadcastInDim S8x80x385x513 ![] bcast_S_S8x80x385x513 main_cst_3
  let main_v11 : FVec F S8x80x385x513 .f32 := subf main_v10 main_arg0
  let main_cst_4 : FVec F S_ .f32 := constant S_ .f32 0x2D2FEBFF#32
  let main_v12 : FVec F S8x80x385x513 .f32 := broadcastInDim S8x80x385x513 ![] bcast_S_S8x80x385x513 main_cst_4
  let main_v13 : FVec F S8x80x385x513 .f32 := addf main_v11 main_v12
  let main_cst_5 : FVec F S_ .f32 := constant S_ .f32 0x00000000#32
  let main_v14 : FVec F S8x80x385x513 .f32 := broadcastInDim S8x80x385x513 ![] bcast_S_S8x80x385x513 main_cst_5
  let main_v15 : IVec S8x80x385x513 1 := cmpf .ogt main_v13 main_v14
  fn_part1 (F := F) main_v9 main_v15
-- ==== Kernel.lean ====
abbrev S8x80x385x513 : Shape := ⟨4, ![8, 80, 385, 513]⟩
abbrev S8x385x513 : Shape := ⟨3, ![8, 385, 513]⟩
abbrev S_ : Shape := ⟨0, ![]⟩
abbrev S8 : Shape := ⟨1, ![8]⟩
abbrev S8x8x128 : Shape := ⟨3, ![8, 8, 128]⟩
abbrev S1x80x56x513 : Shape := ⟨4, ![1, 80, 56, 513]⟩
abbrev S1x56x513 : Shape := ⟨3, ![1, 56, 513]⟩
abbrev S1x8x128 : Shape := ⟨3, ![1, 8, 128]⟩
abbrev S8x128 : Shape := ⟨2, ![8, 128]⟩
abbrev S56x513 : Shape := ⟨2, ![56, 513]⟩
abbrev S1 : Shape := ⟨1, ![1]⟩
abbrev S1x16x56x513 : Shape := ⟨4, ![1, 16, 56, 513]⟩
abbrev S16x56x513 : Shape := ⟨3, ![16, 56, 513]⟩
abbrev S16x1x1 : Shape := ⟨3, ![16, 1, 1]⟩
abbrev S1x1x56x513 : Shape := ⟨4, ![1, 1, 56, 513]⟩
abbrev S56 : Shape := ⟨1, ![56]⟩
abbrev S56x1 : Shape := ⟨2, ![56, 1]⟩
abbrev S1x1 : Shape := ⟨2, ![1, 1]⟩
abbrev S8x1x1 : Shape := ⟨3, ![8, 1, 1]⟩

abbrev nBuf : Space → Nat
  | .hbm => 11
  | .vmem => 7
  | .smem => 1
  | _ => 0

abbrev bufTy : (tb : Table) → Fin (tcTables nBuf tb) → BufTy
  | .hbm, ⟨0, _⟩ => ⟨S8x80x385x513, .f32⟩
  | .hbm, ⟨1, _⟩ => ⟨S8x385x513, .i32⟩
  | .hbm, ⟨2, _⟩ => ⟨S_, .i32⟩
  | .hbm, ⟨3, _⟩ => ⟨S8x8x128, .f32⟩
  | .hbm, ⟨4, _⟩ => ⟨S8x1x1, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x80x56x513, .f32⟩
  | .local _ .vmem, ⟨1, _⟩ => ⟨S1x80x56x513, .f32⟩
  | .local _ .vmem, ⟨2, _⟩ => ⟨S1x56x513, .i32⟩
  | .local _ .vmem, ⟨3, _⟩ => ⟨S1x56x513, .i32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | .local _ .smem, ⟨0, _⟩ => ⟨S8, .i32⟩
  | _, _ => ⟨S8x80x385x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v5 : Index := Scalar.indexCast arg0
  ![v5.toNat]
@[reducible] def k0_t1_loop : Scf.Loop 32 :=
  let c0_i32_3 : BitVec 32 := 0#32
  let c5_i32 : BitVec 32 := 5#32
  let v8 : BitVec 32 := Scalar.addi c0_i32_3 c5_i32
  let c1_i32 : BitVec 32 := 1#32
  ⟨c0_i32_3, v8, c1_i32⟩
def k0_off2 (k0_t1 : Fin k0_t1_loop.trips) : Fin 4 → Nat :=
  let c0_22 : Index := 0#32
  let c0_i32_3 : BitVec 32 := 0#32
  let c1_i32 : BitVec 32 := 1#32
  let arg7 : BitVec 32 := Scf.iv c0_i32_3 c1_i32 k0_t1
  let c16_i32 : BitVec 32 := 16#32
  let v51 : BitVec 32 := Scalar.muli arg7 c16_i32
  let v52 : Index := Scalar.indexCast v51
  let c0_23 : Index := 0#32
  let c0_24 : Index := 0#32
  ![0, v52.toNat, 0, 0]
def k0_cond2 (i : grid0.Coords) : BitVec 1 :=
  let arg1 : BitVec 32 := BitVec.ofNat 32 (i 1).val
  let c6_i32 : BitVec 32 := 6#32
  let v48 : BitVec 1 := Scalar.cmpi .eq arg1 c6_i32
  let v49 : BitVec 32 := Scalar.extui v48
  let c0_i32_21 : BitVec 32 := 0#32
  let v50 : BitVec 1 := Scalar.cmpi .ne v49 c0_i32_21
  v50

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x56x513 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x56x513 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8x385x513_S8_d1_2 : S8x385x513.ReducesTo [1, 2] S8
  h_S_ : 0 < S_.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x56x513_S1x56x513_0_0_0 : ∀ a, (![0, 0, 0] : Fin 3 → Nat) a + S1x56x513.size a ≤ S1x56x513.size a
  h_S1x56x513 : 0 < S1x56x513.numel
  shapeCasts_S1x56x513_S56x513 : S1x56x513.ShapeCasts S56x513
  numel1_S1 : S1.numel = 1
  h_S1x16x56x513 : 0 < S1x16x56x513.numel
  shapeCasts_S1x16x56x513_S16x56x513 : S1x16x56x513.ShapeCasts S16x56x513
  iota_S16x1x1_d0_w32 : S16x1x1.Iotas .tc 32 [0]
  shapeCasts_S56x513_S1x56x513 : S56x513.ShapeCasts S1x56x513
  broadcasts_S16x1x1_S16x56x513 : S16x1x1.Broadcasts S16x56x513
  broadcasts_S1x56x513_S16x56x513 : S1x56x513.Broadcasts S16x56x513
  reduces_S16x56x513_S56x513 : S16x56x513.Reduces [0] S56x513
  inb_S1x80x56x513_S1x1x56x513_0_0_0_0 : ∀ a, (![0, 0, 0, 0] : Fin 4 → Nat) a + S1x1x56x513.size a ≤ S1x80x56x513.size a
  h_S1x1x56x513 : 0 < S1x1x56x513.numel
  shapeCasts_S1x1x56x513_S56x513 : S1x1x56x513.ShapeCasts S56x513
  natLt_1_32 : 1 < 32
  iota_S56x513_d0_w32 : S56x513.Iotas .tc 32 [0]
  reduces_S56x513_S56 : S56x513.Reduces [1] S56
  shapeCasts_S56_S56x1 : S56.ShapeCasts S56x1
  reduces_S56x1_S1 : S56x1.Reduces [0] S1
  shapeCasts_S1_S1x1 : S1.ShapeCasts S1x1
  shapeCasts_S1x1_S1x1 : S1x1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  hrank0 : 0 < grid0.rank
  k0_off1_inb : ∀ i : grid0.Coords, ∀ a, (k0_off1 i) a + S1.size a ≤ S8.size a
  k0_t1_ok : k0_t1_loop.OK
  k0_off2_inb : ∀ k0_t1 : Fin k0_t1_loop.trips, ∀ a, (k0_off2 k0_t1) a + S1x16x56x513.size a ≤ S1x80x56x513.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x80x56x513.size a < S8x80x385x513.size a
  hwx0_0 : ∀ i : grid0.Coords, EltTy.bits .f32 = 32 ∨ (Rect.unit (s := S8x80x385x513) (fun a => cc0_transform_0 i a * S1x80x56x513.size a) (fun a => (Pipeline.Clip.of (cc0_transform_0 i a) (S1x80x56x513.size a) (S8x80x385x513.size a)).extent (S1x80x56x513.size a)) fun a => Pipeline.Clip.inb (Pipeline.Clip.ok_of (hstart0_0 i a))).WholeWords (EltTy.packing .f32)
  hwxs0_0 : ∀ i : grid0.Coords, EltTy.bits .f32 = 32 ∨ (Rect.unit (s := S1x80x56x513) (fun _ => 0) (fun a => (Pipeline.Clip.of (cc0_transform_0 i a) (S1x80x56x513.size a) (S8x80x385x513.size a)).extent (S1x80x56x513.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x56x513.size a < S8x385x513.size a
  hwx0_1 : ∀ i : grid0.Coords, EltTy.bits .i32 = 32 ∨ (Rect.unit (s := S8x385x513) (fun a => cc0_transform_1 i a * S1x56x513.size a) (fun a => (Pipeline.Clip.of (cc0_transform_1 i a) (S1x56x513.size a) (S8x385x513.size a)).extent (S1x56x513.size a)) fun a => Pipeline.Clip.inb (Pipeline.Clip.ok_of (hstart0_1 i a))).WholeWords (EltTy.packing .i32)
  hwxs0_1 : ∀ i : grid0.Coords, EltTy.bits .i32 = 32 ∨ (Rect.unit (s := S1x56x513) (fun _ => 0) (fun a => (Pipeline.Clip.of (cc0_transform_1 i a) (S1x56x513.size a) (S8x385x513.size a)).extent (S1x56x513.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)

variable [Facts₀]

abbrev clip0_0 (i : grid0.Coords) : Fin S8x80x385x513.rank → Pipeline.Clip := fun a => Pipeline.Clip.of (cc0_transform_0 i a) (S1x80x56x513.size a) (S8x80x385x513.size a)
abbrev spec0_0 : Pipeline.WinSpec sig grid0.rank :=
  Pipeline.WinSpec.ofSpec (Memref.whole main_arg0) S1x80x56x513.size reads0_0 false false 2 stage0_0 sem0_0 nbuf0_0 hstage0_0

abbrev clip0_1 (i : grid0.Coords) : Fin S8x385x513.rank → Pipeline.Clip := fun a => Pipeline.Clip.of (cc0_transform_1 i a) (S1x56x513.size a) (S8x385x513.size a)
abbrev spec0_1 : Pipeline.WinSpec sig grid0.rank :=
  Pipeline.WinSpec.ofSpec (Memref.whole main_arg1) S1x56x513.size reads0_1 false false 2 stage0_1 sem0_1 nbuf0_1 hstage0_1

abbrev spec0_2 : Pipeline.WinSpec sig grid0.rank :=
  Pipeline.WinSpec.ofSpec (Memref.whole main_v1) S1x8x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
abbrev clip0 (pf : pre0.Contents (Elt F)) : (w : Fin 3) → grid0.Coords → Fin (spec0 w).shape.rank → Pipeline.Clip := fun | 0 => clip0_0 | 1 => clip0_1 | 2 => fun _ _ => none | ⟨_ + 3, h⟩ => absurd h (Nat.not_lt.2 (Nat.le_add_left _ _))
theorem hclip0 : ∀ (pf : pre0.Contents (Elt F)), ok0 pf → ∀ w (i : grid0.Coords) a, Pipeline.Clip.Ok (ix0 pf w i a) ((spec0 w).size a) ((spec0 w).shape.size a) (clip0 pf w i a) :=
  fun _ _ => fun | 0 => fun i a => Pipeline.Clip.ok_of (hstart0_0 i a) | 1 => fun i a => Pipeline.Clip.ok_of (hstart0_1 i a) | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.unit (fun a => ix0 pf w i a * (spec0 w).size a)
    (fun a => (clip0 pf w i a).extent ((spec0 w).size a)) fun a => Pipeline.Clip.inb (hclip0 pf hok w i a)).WholeWords (spec0 w).elt.packing :=
  fun _ _ => fun | 0 => hwx0_0 | 1 => hwx0_1 | 2 => hwx0_2 | ⟨_ + 3, h⟩ => absurd h (Nat.not_lt.2 (Nat.le_add_left _ _))
theorem hwxs0 : ∀ (pf : pre0.Contents (Elt F)) (hok : ok0 pf) w (i : grid0.Coords), (spec0 w).elt.bits = 32 ∨ (Rect.unit (s := (spec0 w).block) (fun _ => 0)
    (fun a => (clip0 pf w i a).extent ((spec0 w).size a)) fun a => (Nat.zero_add _).trans_le (Pipeline.Clip.extent_le (hclip0 pf hok w i a))).WholeWords (spec0 w).elt.packing :=
  fun _ _ => fun | 0 => hwxs0_0 | 1 => hwxs0_1 | 2 => fun _ => .inr (Rect.wholeWords_whole _ _) | ⟨_ + 3, h⟩ => absurd h (Nat.not_lt.2 (Nat.le_add_left _ _))
abbrev loose0 : Fin 3 → Bool := fun | 0 => true | 1 => true | 2 => false | ⟨_ + 3, h⟩ => absurd h (Nat.not_lt.2 (Nat.le_add_left _ _))
theorem hstage0 : ∀ w s, ((spec0 w).stage s).IsWhole := fun | 0 => hstage0_0 | 1 => hstage0_1 | 2 => hstage0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x80x385x513 : Shape := ⟨4, ![8, 80, 385, 513]⟩
abbrev S8x385x513 : Shape := ⟨3, ![8, 385, 513]⟩
abbrev S8x385x513x80 : Shape := ⟨4, ![8, 385, 513, 80]⟩
abbrev S80 : Shape := ⟨1, ![80]⟩
abbrev S8x385x513x1 : Shape := ⟨4, ![8, 385, 513, 1]⟩
abbrev S1x1x1x80 : Shape := ⟨4, ![1, 1, 1, 80]⟩
abbrev S_ : Shape := ⟨0, ![]⟩
abbrev S8 : Shape := ⟨1, ![8]⟩
abbrev S8x1x1 : Shape := ⟨3, ![8, 1, 1]⟩
abbrev S1 : Shape := ⟨1, ![1]⟩

abbrev nBuf : Space → Nat
  | .hbm => 49
  | .vmem => 0
  | .smem => 0
  | _ => 0

abbrev bufTy : (tb : Table) → Fin (tcTables nBuf tb) → BufTy
  | .hbm, ⟨0, _⟩ => ⟨S8x80x385x513, .f32⟩
  | .hbm, ⟨1, _⟩ => ⟨S8x385x513, .i32⟩
  | .hbm, ⟨2, _⟩ => ⟨S8x385x513x80, .f32⟩
  | .hbm, ⟨3, _⟩ => ⟨S80, .i32⟩
  | .hbm, ⟨4, _⟩ => ⟨S8x385x513x1, .i32⟩
  | .hbm, ⟨5, _⟩ => ⟨S1x1x1x80, .i32⟩
  | .hbm, ⟨6, _⟩ => ⟨S8x385x513x80, .i32⟩
  | .hbm, ⟨7, _⟩ => ⟨S8x385x513x80, .i32⟩
  | .hbm, ⟨8, _⟩ => ⟨S8x385x513x80, .i1⟩
  | .hbm, ⟨9, _⟩ => ⟨S8x385x513x80, .f32⟩
  | .hbm, ⟨10, _⟩ => ⟨S_, .i32⟩
  | .hbm, ⟨11, _⟩ => ⟨S8, .i32⟩
  | .hbm, ⟨12, _⟩ => ⟨S8x1x1, .i32⟩
  | .hbm, ⟨13, _⟩ => ⟨S_, .i32⟩
  | .hbm, ⟨14, _⟩ => ⟨S8x1x1, .i32⟩
  | .hbm, ⟨15, _⟩ => ⟨S8x1x1, .i32⟩
  | .hbm, ⟨16, _⟩ => ⟨S8x385x513, .i32⟩
  | .hbm, ⟨17, _⟩ => ⟨S8x385x513, .i1⟩
  | .hbm, ⟨18, _⟩ => ⟨S8x385x513, .f32⟩
  | .hbm, ⟨19, _⟩ => ⟨S_, .i32⟩
  | .hbm, ⟨20, _⟩ => ⟨S1, .i32⟩
  | .hbm, ⟨21, _⟩ => ⟨S8x385x513x80, .f32⟩
  | .hbm, ⟨22, _⟩ => ⟨S_, .f32⟩
  | .hbm, ⟨23, _⟩ => ⟨S8x385x513x80, .f32⟩
  | .hbm, ⟨24, _⟩ => ⟨S8x385x513x80, .f32⟩
  | .hbm, ⟨25, _⟩ => ⟨S8x385x513x80, .f32⟩
  | .hbm, ⟨26, _⟩ => ⟨S8x385x513x80, .f32⟩
  | .hbm, ⟨27, _⟩ => ⟨S_, .f32⟩
  | .hbm, ⟨28, _⟩ => ⟨S8x385x513x80, .f32⟩
  | .hbm, ⟨29, _⟩ => ⟨S8x385x513x80, .f32⟩
  | .hbm, ⟨30, _⟩ => ⟨S_, .f32⟩
  | .hbm, ⟨31, _⟩ => ⟨S8x385x513x80, .f32⟩
  | .hbm, ⟨32, _⟩ => ⟨S8x385x513x80, .f32⟩
  | .hbm, ⟨33, _⟩ => ⟨S8x385x513x80, .f32⟩
  | .hbm, ⟨34, _⟩ => ⟨S_, .f32⟩
  | .hbm, ⟨35, _⟩ => ⟨S8x385x513x80, .f32⟩
  | .hbm, ⟨36, _⟩ => ⟨S8x385x513x80, .f32⟩
  | .hbm, ⟨37, _⟩ => ⟨S8x385x513x80, .f32⟩
  | .hbm, ⟨38, _⟩ => ⟨S8x385x513x80, .f32⟩
  | .hbm, ⟨39, _⟩ => ⟨S_, .f32⟩
  | .hbm, ⟨40, _⟩ => ⟨S8x385x513, .f32⟩
  | .hbm, ⟨41, _⟩ => ⟨S_, .f32⟩
  | .hbm, ⟨42, _⟩ => ⟨S8x385x513, .f32⟩
  | .hbm, ⟨43, _⟩ => ⟨S8x385x513, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8x80x385x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  transposes_S8x80x385x513_S8x385x513x80_0_2_3_1 : S8x80x385x513.Transposes [0, 2, 3, 1] S8x385x513x80
  bcast_S8x385x513_S8x385x513x1_0_1_2 : S8x385x513.BroadcastsInDim S8x385x513x1 (![0, 1, 2] : Fin 3 → Fin S8x385x513x1.rank)
  bcast_S80_S1x1x1x80_3 : S80.BroadcastsInDim S1x1x1x80 (![3] : Fin 1 → Fin S1x1x1x80.rank)
  bcast_S1x1x1x80_S8x385x513x80_0_1_2_3 : S1x1x1x80.BroadcastsInDim S8x385x513x80 (![0, 1, 2, 3] : Fin 4 → Fin S8x385x513x80.rank)
  bcast_S8x385x513x1_S8x385x513x80_0_1_2_3 : S8x385x513x1.BroadcastsInDim S8x385x513x80 (![0, 1, 2, 3] : Fin 4 → Fin S8x385x513x80.rank)
  reducesTo_S8x385x513_S8_d1_2 : S8x385x513.ReducesTo [1, 2] S8
  h_S_ : 0 < S_.numel
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x385x513_0_1_2 : S8x1x1.BroadcastsInDim S8x385x513 (![0, 1, 2] : Fin 3 → Fin S8x385x513.rank)
  bcast_S_S1 : S_.BroadcastsInDim S1 (![] : Fin 0 → Fin S1.rank)
  bcast_S_S8x385x513x80 : S_.BroadcastsInDim S8x385x513x80 (![] : Fin 0 → Fin S8x385x513x80.rank)
  reducesTo_S8x385x513x80_S8x385x513_d3 : S8x385x513x80.ReducesTo [3] S8x385x513
  bcast_S_S8x385x513 : S_.BroadcastsInDim S8x385x513 (![] : Fin 0 → Fin S8x385x513.rank)
  reducesTo_S8x385x513_S_d0_1_2 : S8x385x513.ReducesTo [0, 1, 2] S_
  scatter_S8x385x513x80_S1_S8x385x513_012_3_3_0_wf : ScatterDims.WF S8x385x513x80 S1 S8x385x513 [0, 1, 2] [3] [3] 0

variable [Facts₀]

def scatter_S8x385x513x80_S1_S8x385x513_012_3_3_0 : ScatterDims S8x385x513x80 S1 S8x385x513 where
  updateWindowDims := [0, 1, 2]
  insertedWindowDims := [3]
  scatterDimsToOperandDims := [3]
  indexVectorDim := 0
  wf := scatter_S8x385x513x80_S1_S8x385x513_012_3_3_0_wf

class Facts : Prop extends Facts₀ where

variable [Facts]
-- ==== Proof.K.Body.lean ====
/-
  The kernel body, run once at a symbolic grid point.

  One point of the grid handles one tile of 56 rows of one image. The body clears the (8,128) accumulator at the
  image's first tile, reads the tile of targets, the image's largest target (a word of the prefetched table) and,
  sixteen classes at a time, the tile of scores; folds them to one number — the tile's share of the image's mean
  log-likelihood —, adds it to every entry of the accumulator, and at the image's last tile copies the accumulator
  into the result's block.

  Nothing here decides which tile the point is: both conditionals stay open, and each written buffer ends at contents
  that are a case distinction on the point's coordinates. The two contents are the witness `bodyRun` carries: a
  claim about the result reads them, the frame needs only that they exist.
-/
import proofs.«405709_j67010079752779_3_alg».proof.Proof.Gen.Kernel.Loops
import Idealize.ShloMosaic.Lib.Tactic
import Idealize.ShloMosaic.Lib.Pipeline.Kit
import Idealize.ShloMosaic.Lib.Pipeline.Frame

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: its contents type; the buffer held whole at `f`; and held on the memref's
    elements at `f` (for a whole-buffer memref the same elements: the form a staging memref is handed over in). -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The table is held at half the share: the body only reads it, and the other half stays outside the region. -/
abbrev ptT (c : Dev nD) {S : Shape} {e : EltTy} (M : Memref sig .tc .smem S e) (f : Bf (F := F) c M) : sProp 𝕄 :=
  M.view.loc (c : Thread nD τ) ↦{fullShare.right} f
abbrev ptv (c : Dev nD) {sp : Space} {S : Shape} {e : EltTy} (M : Memref sig .tc sp S e) (f : Bf (F := F) c M) : sProp 𝕄 :=
  M.view.loc (c : Thread nD τ) ↦[M.view.set]{fullShare} f

/-- The prefetched table (the images' largest targets) and the accumulator, as the body's memref arguments. -/
abbrev Mtab : Memref sig .tc .smem S8 .i32 := Memref.whole main_v0
abbrev Macc : Memref sig .tc .vmem S8x128 .f32 := Memref.whole cc0_scratch0

set_option maxHeartbeats 1000000 in
/-- THE BODY'S RUN at grid point `i`, on any whole staging memrefs `M3` (scores), `M4` (targets), `M5` (result):
    from the table at `tb`, the two input blocks at `x3`, `x4`, the result's buffer at `x5` and the accumulator at
    `fs`, the body runs to its return with the table and the inputs as they were, and the accumulator and the
    result's buffer at the contents the run finds (`.1.1`, `.1.2`: the witness, assigned when the buffers are handed
    to the continuation). -/
noncomputable def bodyRun (c : Dev nD) (i : grid0.Coords)
    (M3 : Memref sig .tc .vmem S1x80x56x513 .f32) (h3 : M3.IsWhole)
    (M4 : Memref sig .tc .vmem S1x56x513 .i32) (h4 : M4.IsWhole)
    (M5 : Memref sig .tc .vmem S1x8x128 .f32) (h5 : M5.IsWhole)
    (tb : Bf (F := F) c Mtab) (x3 : Vec F S1x80x56x513 .f32) (x4 : Vec F S1x56x513 .i32) (x5 : Vec F S1x8x128 .f32)
    (fs : Bf (F := F) c Macc) :
    { R : Bf (F := F) c Macc × Bf (F := F) c M5 //
      ∀ (E : Set ℕ) (K : PUnit → sProp 𝕄),
        iprop(ptT c Mtab tb ∗ owns (c : Thread nD τ) M3 fullShare x3 ∗ owns (c : Thread nD τ) M4 fullShare x4
            ∗ owns (c : Thread nD τ) M5 fullShare x5 ∗ pt c Macc fs
            ∗ (iprop(ptT c Mtab tb ∗ owns (c : Thread nD τ) M3 fullShare x3 ∗ owns (c : Thread nD τ) M4 fullShare x4
                ∗ ptv c M5 R.2 ∗ pt c Macc R.1) -∗ K ⟨⟩))
          ⊢ wp frame (wpE (defs₀ (F := F)) Variants.none c none) E
              (cc0_kernel i Mtab (Memref.isWhole_whole _) M3 h3 M4 h4 M5 h5 Macc (Memref.isWhole_whole _)) K } := by
  refine ⟨(?_, ?_), fun E K => ?run⟩
  case run =>
    unfold owns
    iintro ⟨Ht, ⟨%f3, %hf3, H3⟩, ⟨%f4, %hf4, H4⟩, ⟨%f5, %hf5, H5⟩, Hs, Hk⟩
    obtain rfl := h3.eq_unread hf3
    obtain rfl := h4.eq_unread hf4
    obtain rfl := h5.eq_unread hf5
    sl_exec
    sl_step
    iapply Hk
    isplitl [Ht]; · iexact Ht
    isplitl [H3]
    · iexists _; isplitr; · ipureintro; exact h3.read_unread _
      iexact H3
    isplitl [H4]
    · iexists _; isplitr; · ipureintro; exact h4.read_unread _
      iexact H4
    isplitl [H5]; · iexact H5
    iexact Hs

end Cert.Kernel.Hand

end
-- ==== Proof.K.Kit.lean ====
/-
  The program around its one region.

  @main computes each image's largest target (two host operations), enters the region with that table prefetched,
  and afterwards takes entry (·, 0, 0) of each image's result block, sums the eight from zero, negates and divides by
  the pixel count (seven host operations). This module states what the region is entered with (the launch memory
  after the first two operations), the table's contents there, what the later operations may touch, and the forms in
  which the region hands the body the table and the accumulator.
-/
import proofs.«405709_j67010079752779_3_alg».proof.Proof.Gen.Kernel.Launch
import proofs.«405709_j67010079752779_3_alg».proof.Proof.Gen.Kernel.Skeleton
import proofs.«405709_j67010079752779_3_alg».proof.Proof.K.Body
import Idealize.ShloMosaic.Lib.Pipeline.FrameBody
import Idealize.ShloMosaic.Lib.Pipeline.FrameSuffix
import Idealize.ShloMosaic.Lib.Tactic

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch memory after the two operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the seven later operations, entered at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The table -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- They are admissible: no index map reads the table, so nothing is asked of it. -/
abbrev adm : (pcfg0 (F := F)).Adm := ⟨tbl m, (trivial : ok0 (F := F) (tbl m))⟩
abbrev cfgM : Pipeline.Cfg sig Λ₀ := cfg0 (adm m)

/-! ## The operations after the region -/

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl
  all_goals intro k; fin_cases k; simp only [StableHlo.nullary_bufs, StableHlo.unary_bufs, StableHlo.binary_bufs, StableHlo.reshape_bufs, Finset.mem_insert, Finset.mem_singleton, not_or]; (repeat' constructor) <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

end Cert.Kernel.Hand

end
-- ==== Proof.K.FrameRun.lean ====
/-
  The frame: the program runs to its end from any memory and leaves the scores and the targets as they were.

  For this claim nothing needs to be known of what the body computes. The proof data say of the two input windows'
  staging buffers that the body leaves them as it found them, and of the result's staging buffer nothing; the
  invariant between points is the table at its contents, the accumulator at some contents and the generator register
  at some state. The body obligation is the body's run at a symbolic point; the launch is the library's frame run for
  a region with a prefetched table between two lines of host operations.
-/
import proofs.«405709_j67010079752779_3_alg».proof.Proof.K.Kit

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; the input windows' buffers left as found, the
    result's at anything; the invariant the class's with the table; nothing owed; full shares. -/
def rdat (c : Dev nD) : RDat τ (Elt F) Unit ℕ (UR sig nD τ) ℕ (cfgM m) c where
  A w := V m c (Pipeline.arrRef spec0 w)
  after w t := match w with
    | ⟨0, _⟩ => fun Y X => X = Y
    | ⟨1, _⟩ => fun Y X => X = Y
    | ⟨2, _⟩ => fun _ _ => True
  Φ _ := iprop(Pipeline.ΦA spec0 c ∗ Pipeline.ΦT pre0 (tbl m) c)
  q _ := fullShare
  owed _ := 0

/-- The table's half as the body is handed it. -/
theorem PhiT0_eq (c : Dev nD) : (Pipeline.ΦT pre0 (tbl m) c : sProp 𝕄) = ptT c Mtab (tbl m 0) := by
  unfold Pipeline.ΦT Pipeline.prefHeld
  rw [show (Finset.univ : Finset (Fin 1)) = {(0 : Fin 1)} from by decide, bigSep_singleton]
  rfl

/-- The class's invariant with the accumulator named: it at some contents, the generator register at some state. -/
theorem PhiA0_eq (c : Dev nD) :
    (Pipeline.ΦA spec0 c : sProp 𝕄) = iprop(iprop((∃ f, pt c Macc f)) ∗ (∃ r, prngReg c r)) := by
  unfold Pipeline.ΦA; rw [scopedRest0_eq]

set_option maxHeartbeats 1000000 in
/-- The body at any point, whatever its three staging buffers hold. -/
theorem frame_body (c : Dev nD) : (rdat m c).BodyObligation (defs₀ (F := F)) Variants.none () Set.univ := fun t Y _ => by
  rw [bigSep_W0, bigSep_W0]
  rw [show (rdat m c).owesAt () t.succ = (rdat m c).owesAt () t.castSucc from rfl,
    show (rdat m c).Φ t.succ = iprop(Pipeline.ΦA spec0 c ∗ Pipeline.ΦT pre0 (tbl m) c) from rfl,
    show (rdat m c).Φ t.castSucc = iprop(Pipeline.ΦA spec0 c ∗ Pipeline.ΦT pre0 (tbl m) c) from rfl, PhiA0_eq, PhiT0_eq]
  iintro ⟨⟨⟨⟨%fs, Hs⟩, Hg⟩, Ht⟩, Ho, H0, H1, H2⟩
  obtain ⟨R, hrun⟩ := bodyRun c ((cfgM m).grid.coords t) (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2)) (tbl m 0) (Y 0) (Y 1) (Y 2) fs
  iapply (hrun Set.univ _)
  isplitl [Ht]; · iexact Ht
  isplitl [H0]; · iexact H0
  isplitl [H1]; · iexact H1
  isplitl [H2]; · iexact H2
  isplitl [Hs]; · iexact Hs
  iintro ⟨Ht, H0, H1, H2, Hs⟩
  isplitl [Hs Hg Ht]
  · isplitr [Ht]
    · isplitl [Hs]
      · iexists _; iexact Hs
      iexact Hg
    iexact Ht
  isplitl [Ho]; · iexact Ho
  isplitl [H0]
  · iexists (Y 0); isplitr; · ipureintro; rfl
    iexact H0
  isplitl [H1]
  · iexists (Y 1); isplitr; · ipureintro; rfl
    iexact H1
  · iexists (spec0_2.stage ((cfgM m).slots t 2)).view.read (Elt F) R.2
    isplitr; · ipureintro; trivial
    unfold owns
    iexists R.2; isplitr; · ipureintro; rfl
    iexact H2

/-! ## The run and the frame -/

/-- The buffers the seven operations after the region write. -/
def tailW : Finset (Ref sig .tc) := {main_v2, main_v3, main_cst, main_v4, main_v5, main_cst_0, main_v6}

theorem sfx_writes : ∀ ops ∈ ([hostOps1] : List (List (HloOp τ sig (Elt F)))), ∀ op ∈ ops,
    ∀ b : Ref sig .tc, Proc.devRef .tc b ∈ op.writes → b ∈ tailW := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals
    intro b hb
    simp only [StableHlo.nullary_writes, StableHlo.unary_writes, StableHlo.binary_writes, StableHlo.reshape_writes, Finset.mem_singleton] at hb
    obtain rfl := Proc.devRef_injective _ hb
    decide

/-- Neither argument is written before the region. -/
theorem V_main_arg0 (c : Dev nD) : V m c main_arg0 = m ((c : Thread nD τ).loc main_arg0) :=
  StableHlo.after_of_forall_not_mem (b := Proc.devRef .tc main_arg0) _ _ (by
    intro op hop
    simp only [List.flatten_cons, List.flatten_nil, List.append_nil, hostOps0, List.mem_cons, List.mem_nil_iff, or_false] at hop
    rcases hop with rfl | rfl <;>
      simp only [StableHlo.nullary_writes, StableHlo.binary_writes, Finset.mem_singleton] <;>
      exact StableHlo.devRef_ne_of_ne (by decide))
theorem V_main_arg1 (c : Dev nD) : V m c main_arg1 = m ((c : Thread nD τ).loc main_arg1) :=
  StableHlo.after_of_forall_not_mem (b := Proc.devRef .tc main_arg1) _ _ (by
    intro op hop
    simp only [List.flatten_cons, List.flatten_nil, List.append_nil, hostOps0, List.mem_cons, List.mem_nil_iff, or_false] at hop
    rcases hop with rfl | rfl <;>
      simp only [StableHlo.nullary_writes, StableHlo.binary_writes, Finset.mem_singleton] <;>
      exact StableHlo.devRef_ne_of_ne (by decide))

set_option backward.isDefEq.respectTransparency.types false in
/-- From any memory with zero counters every weakly fair execution of @main terminates; each array of the region ends
    at contents the proof data admit, every buffer outside them that the later operations do not write as it was when
    the region was entered. -/
theorem run_frame : θ_run defs (onTc (τ := τ) (main (F := F))) (s₀ m ρ)
    (Pipeline.RDat.FramePostR (cfgM m) (rdat m) tailW (V m)) :=
  Pipeline.RDat.θ_run_frameP_around_T pcfgs (fun _ => adm m) (0 : Fin 1) launch0 defs₀ Variants.none (rdat m) tailW m ρ main
    (hbody := frame_body m) (hshare := fun c => (rdat m c).share_full fun _ => rfl) (howed := fun _ _ => rfl)
    (V₀ := V0 m) (opss := [hostOps1]) (hsub := sfx_sub) (hfresh := sfx_fresh) (hkeep := sfx_keeps) (hT := sfx_writes)
    (hmain := hmain m Variants.none) (hA := fun _ _ => rfl) (hpf := fun c k => V_pre m c k) (hΦ := fun _ _ => rfl)

/-- THE FRAME, at any float values: the program runs to its end and the scores and the targets end as they were —
    both are arrays of input windows, which no write-back touches, and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans (V_main_arg0 m c), h1.trans (V_main_arg1 m c)⟩) (run_frame m ρ)

end Cert.Kernel.Hand

end
-- ==== Proof.KI.Body.lean ====
/-
  The kernel body, run once at a symbolic grid point.

  One point of the grid handles one tile of 56 rows of one image. The body clears the (8,128) accumulator at the
  image's first tile, reads the tile of targets, the image's largest target (a word of the prefetched table) and,
  sixteen classes at a time, the tile of scores; folds them to one number — the tile's share of the image's mean
  log-likelihood —, adds it to every entry of the accumulator, and at the image's last tile copies the accumulator
  into the result's block.

  Nothing here decides which tile the point is: both conditionals stay open, and each written buffer ends at contents
  that are a case distinction on the point's coordinates. The two contents are the witness `bodyRun` carries: a
  claim about the result reads them, the frame needs only that they exist.
-/
import proofs.«405709_j67010079752779_3_alg».proof.Proof.Gen.KernelIdeal.Loops
import Idealize.ShloMosaic.Lib.Tactic
import Idealize.ShloMosaic.Lib.Pipeline.Kit
import Idealize.ShloMosaic.Lib.Pipeline.Frame

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: its contents type; the buffer held whole at `f`; and held on the memref's
    elements at `f` (for a whole-buffer memref the same elements: the form a staging memref is handed over in). -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The table is held at half the share: the body only reads it, and the other half stays outside the region. -/
abbrev ptT (c : Dev nD) {S : Shape} {e : EltTy} (M : Memref sig .tc .smem S e) (f : Bf (F := F) c M) : sProp 𝕄 :=
  M.view.loc (c : Thread nD τ) ↦{fullShare.right} f
abbrev ptv (c : Dev nD) {sp : Space} {S : Shape} {e : EltTy} (M : Memref sig .tc sp S e) (f : Bf (F := F) c M) : sProp 𝕄 :=
  M.view.loc (c : Thread nD τ) ↦[M.view.set]{fullShare} f

/-- The prefetched table (the images' largest targets) and the accumulator, as the body's memref arguments. -/
abbrev Mtab : Memref sig .tc .smem S8 .i32 := Memref.whole main_v0
abbrev Macc : Memref sig .tc .vmem S8x128 .f32 := Memref.whole cc0_scratch0

set_option maxHeartbeats 1000000 in
/-- THE BODY'S RUN at grid point `i`, on any whole staging memrefs `M3` (scores), `M4` (targets), `M5` (result):
    from the table at `tb`, the two input blocks at `x3`, `x4`, the result's buffer at `x5` and the accumulator at
    `fs`, the body runs to its return with the table and the inputs as they were, and the accumulator and the
    result's buffer at the contents the run finds (`.1.1`, `.1.2`: the witness, assigned when the buffers are handed
    to the continuation). -/
noncomputable def bodyRun (c : Dev nD) (i : grid0.Coords)
    (M3 : Memref sig .tc .vmem S1x80x56x513 .f32) (h3 : M3.IsWhole)
    (M4 : Memref sig .tc .vmem S1x56x513 .i32) (h4 : M4.IsWhole)
    (M5 : Memref sig .tc .vmem S1x8x128 .f32) (h5 : M5.IsWhole)
    (tb : Bf (F := F) c Mtab) (x3 : Vec F S1x80x56x513 .f32) (x4 : Vec F S1x56x513 .i32) (x5 : Vec F S1x8x128 .f32)
    (fs : Bf (F := F) c Macc) :
    { R : Bf (F := F) c Macc × Bf (F := F) c M5 //
      ∀ (E : Set ℕ) (K : PUnit → sProp 𝕄),
        iprop(ptT c Mtab tb ∗ owns (c : Thread nD τ) M3 fullShare x3 ∗ owns (c : Thread nD τ) M4 fullShare x4
            ∗ owns (c : Thread nD τ) M5 fullShare x5 ∗ pt c Macc fs
            ∗ (iprop(ptT c Mtab tb ∗ owns (c : Thread nD τ) M3 fullShare x3 ∗ owns (c : Thread nD τ) M4 fullShare x4
                ∗ ptv c M5 R.2 ∗ pt c Macc R.1) -∗ K ⟨⟩))
          ⊢ wp frame (wpE (defs₀ (F := F)) Variants.none c none) E
              (cc0_kernel i Mtab (Memref.isWhole_whole _) M3 h3 M4 h4 M5 h5 Macc (Memref.isWhole_whole _)) K } := by
  refine ⟨(?_, ?_), fun E K => ?run⟩
  case run =>
    unfold owns
    iintro ⟨Ht, ⟨%f3, %hf3, H3⟩, ⟨%f4, %hf4, H4⟩, ⟨%f5, %hf5, H5⟩, Hs, Hk⟩
    obtain rfl := h3.eq_unread hf3
    obtain rfl := h4.eq_unread hf4
    obtain rfl := h5.eq_unread hf5
    sl_exec
    sl_step
    iapply Hk
    isplitl [Ht]; · iexact Ht
    isplitl [H3]
    · iexists _; isplitr; · ipureintro; exact h3.read_unread _
      iexact H3
    isplitl [H4]
    · iexists _; isplitr; · ipureintro; exact h4.read_unread _
      iexact H4
    isplitl [H5]; · iexact H5
    iexact Hs

end Cert.KernelIdeal.Hand

end
-- ==== Proof.KI.Kit.lean ====
/-
  The program around its one region.

  @main computes each image's largest target (two host operations), enters the region with that table prefetched,
  and afterwards takes entry (·, 0, 0) of each image's result block, sums the eight from zero, negates and divides by
  the pixel count (seven host operations). This module states what the region is entered with (the launch memory
  after the first two operations), the table's contents there, what the later operations may touch, and the forms in
  which the region hands the body the table and the accumulator.
-/
import proofs.«405709_j67010079752779_3_alg».proof.Proof.Gen.KernelIdeal.Launch
import proofs.«405709_j67010079752779_3_alg».proof.Proof.Gen.KernelIdeal.Skeleton
import proofs.«405709_j67010079752779_3_alg».proof.Proof.KI.Body
import Idealize.ShloMosaic.Lib.Pipeline.FrameBody
import Idealize.ShloMosaic.Lib.Pipeline.FrameSuffix
import Idealize.ShloMosaic.Lib.Tactic

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch memory after the two operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the seven later operations, entered at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The table -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- They are admissible: no index map reads the table, so nothing is asked of it. -/
abbrev adm : (pcfg0 (F := F)).Adm := ⟨tbl m, (trivial : ok0 (F := F) (tbl m))⟩
abbrev cfgM : Pipeline.Cfg sig Λ₀ := cfg0 (adm m)

/-! ## The operations after the region -/

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl
  all_goals intro k; fin_cases k; simp only [StableHlo.nullary_bufs, StableHlo.unary_bufs, StableHlo.binary_bufs, StableHlo.reshape_bufs, Finset.mem_insert, Finset.mem_singleton, not_or]; (repeat' constructor) <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

end Cert.KernelIdeal.Hand

end
-- ==== Proof.KI.FrameRun.lean ====
/-
  The frame: the program runs to its end from any memory and leaves the scores and the targets as they were.

  For this claim nothing needs to be known of what the body computes. The proof data say of the two input windows'
  staging buffers that the body leaves them as it found them, and of the result's staging buffer nothing; the
  invariant between points is the table at its contents, the accumulator at some contents and the generator register
  at some state. The body obligation is the body's run at a symbolic point; the launch is the library's frame run for
  a region with a prefetched table between two lines of host operations.
-/
import proofs.«405709_j67010079752779_3_alg».proof.Proof.KI.Kit

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; the input windows' buffers left as found, the
    result's at anything; the invariant the class's with the table; nothing owed; full shares. -/
def rdat (c : Dev nD) : RDat τ (Elt F) Unit ℕ (UR sig nD τ) ℕ (cfgM m) c where
  A w := V m c (Pipeline.arrRef spec0 w)
  after w t := match w with
    | ⟨0, _⟩ => fun Y X => X = Y
    | ⟨1, _⟩ => fun Y X => X = Y
    | ⟨2, _⟩ => fun _ _ => True
  Φ _ := iprop(Pipeline.ΦA spec0 c ∗ Pipeline.ΦT pre0 (tbl m) c)
  q _ := fullShare
  owed _ := 0

/-- The table's half as the body is handed it. -/
theorem PhiT0_eq (c : Dev nD) : (Pipeline.ΦT pre0 (tbl m) c : sProp 𝕄) = ptT c Mtab (tbl m 0) := by
  unfold Pipeline.ΦT Pipeline.prefHeld
  rw [show (Finset.univ : Finset (Fin 1)) = {(0 : Fin 1)} from by decide, bigSep_singleton]
  rfl

/-- The class's invariant with the accumulator named: it at some contents, the generator register at some state. -/
theorem PhiA0_eq (c : Dev nD) :
    (Pipeline.ΦA spec0 c : sProp 𝕄) = iprop(iprop((∃ f, pt c Macc f)) ∗ (∃ r, prngReg c r)) := by
  unfold Pipeline.ΦA; rw [scopedRest0_eq]

set_option maxHeartbeats 1000000 in
/-- The body at any point, whatever its three staging buffers hold. -/
theorem frame_body (c : Dev nD) : (rdat m c).BodyObligation (defs₀ (F := F)) Variants.none () Set.univ := fun t Y _ => by
  rw [bigSep_W0, bigSep_W0]
  rw [show (rdat m c).owesAt () t.succ = (rdat m c).owesAt () t.castSucc from rfl,
    show (rdat m c).Φ t.succ = iprop(Pipeline.ΦA spec0 c ∗ Pipeline.ΦT pre0 (tbl m) c) from rfl,
    show (rdat m c).Φ t.castSucc = iprop(Pipeline.ΦA spec0 c ∗ Pipeline.ΦT pre0 (tbl m) c) from rfl, PhiA0_eq, PhiT0_eq]
  iintro ⟨⟨⟨⟨%fs, Hs⟩, Hg⟩, Ht⟩, Ho, H0, H1, H2⟩
  obtain ⟨R, hrun⟩ := bodyRun c ((cfgM m).grid.coords t) (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2)) (tbl m 0) (Y 0) (Y 1) (Y 2) fs
  iapply (hrun Set.univ _)
  isplitl [Ht]; · iexact Ht
  isplitl [H0]; · iexact H0
  isplitl [H1]; · iexact H1
  isplitl [H2]; · iexact H2
  isplitl [Hs]; · iexact Hs
  iintro ⟨Ht, H0, H1, H2, Hs⟩
  isplitl [Hs Hg Ht]
  · isplitr [Ht]
    · isplitl [Hs]
      · iexists _; iexact Hs
      iexact Hg
    iexact Ht
  isplitl [Ho]; · iexact Ho
  isplitl [H0]
  · iexists (Y 0); isplitr; · ipureintro; rfl
    iexact H0
  isplitl [H1]
  · iexists (Y 1); isplitr; · ipureintro; rfl
    iexact H1
  · iexists (spec0_2.stage ((cfgM m).slots t 2)).view.read (Elt F) R.2
    isplitr; · ipureintro; trivial
    unfold owns
    iexists R.2; isplitr; · ipureintro; rfl
    iexact H2

/-! ## The run and the frame -/

/-- The buffers the seven operations after the region write. -/
def tailW : Finset (Ref sig .tc) := {main_v2, main_v3, main_cst, main_v4, main_v5, main_cst_0, main_v6}

theorem sfx_writes : ∀ ops ∈ ([hostOps1] : List (List (HloOp τ sig (Elt F)))), ∀ op ∈ ops,
    ∀ b : Ref sig .tc, Proc.devRef .tc b ∈ op.writes → b ∈ tailW := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals
    intro b hb
    simp only [StableHlo.nullary_writes, StableHlo.unary_writes, StableHlo.binary_writes, StableHlo.reshape_writes, Finset.mem_singleton] at hb
    obtain rfl := Proc.devRef_injective _ hb
    decide

/-- Neither argument is written before the region. -/
theorem V_main_arg0 (c : Dev nD) : V m c main_arg0 = m ((c : Thread nD τ).loc main_arg0) :=
  StableHlo.after_of_forall_not_mem (b := Proc.devRef .tc main_arg0) _ _ (by
    intro op hop
    simp only [List.flatten_cons, List.flatten_nil, List.append_nil, hostOps0, List.mem_cons, List.mem_nil_iff, or_false] at hop
    rcases hop with rfl | rfl <;>
      simp only [StableHlo.nullary_writes, StableHlo.binary_writes, Finset.mem_singleton] <;>
      exact StableHlo.devRef_ne_of_ne (by decide))
theorem V_main_arg1 (c : Dev nD) : V m c main_arg1 = m ((c : Thread nD τ).loc main_arg1) :=
  StableHlo.after_of_forall_not_mem (b := Proc.devRef .tc main_arg1) _ _ (by
    intro op hop
    simp only [List.flatten_cons, List.flatten_nil, List.append_nil, hostOps0, List.mem_cons, List.mem_nil_iff, or_false] at hop
    rcases hop with rfl | rfl <;>
      simp only [StableHlo.nullary_writes, StableHlo.binary_writes, Finset.mem_singleton] <;>
      exact StableHlo.devRef_ne_of_ne (by decide))

set_option backward.isDefEq.respectTransparency.types false in
/-- From any memory with zero counters every weakly fair execution of @main terminates; each array of the region ends
    at contents the proof data admit, every buffer outside them that the later operations do not write as it was when
    the region was entered. -/
theorem run_frame : θ_run defs (onTc (τ := τ) (main (F := F))) (s₀ m ρ)
    (Pipeline.RDat.FramePostR (cfgM m) (rdat m) tailW (V m)) :=
  Pipeline.RDat.θ_run_frameP_around_T pcfgs (fun _ => adm m) (0 : Fin 1) launch0 defs₀ Variants.none (rdat m) tailW m ρ main
    (hbody := frame_body m) (hshare := fun c => (rdat m c).share_full fun _ => rfl) (howed := fun _ _ => rfl)
    (V₀ := V0 m) (opss := [hostOps1]) (hsub := sfx_sub) (hfresh := sfx_fresh) (hkeep := sfx_keeps) (hT := sfx_writes)
    (hmain := hmain m Variants.none) (hA := fun _ _ => rfl) (hpf := fun c k => V_pre m c k) (hΦ := fun _ _ => rfl)

/-- THE FRAME, at any float values: the program runs to its end and the scores and the targets end as they were —
    both are arrays of input windows, which no write-back touches, and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans (V_main_arg0 m c), h1.trans (V_main_arg1 m c)⟩) (run_frame m ρ)

end Cert.KernelIdeal.Hand

end
-- ==== Proof.KI.Payload.lean ====
/-
  The body's arithmetic as functions of the two input blocks.

  A point's scores block holds 80 classes of 56 × 513 scores, its targets block 56 × 513 targets. The body reads the
  scores sixteen classes at a time (`chunk`), carries the per-pixel sum of the logarithms through the five chunks
  (`loopVal`), reads class 0 once more for the correction at the pixels whose target is the image's largest less one,
  masks the rows past the image's end, and folds the tile to one number that it adds to every entry of the
  accumulator — cleared first when the tile is the image's first (`accStep`). At the image's last tile the result's
  block becomes the accumulator (`outStep`).
-/
import proofs.«405709_j67010079752779_3_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic

variable {F : FTy → Type} [FloatOps F]

/-- Classes `16k … 16k + 15` of the scores block. -/
def chunk (x3 : Vec F S1x80x56x513 .f32) (k : Fin k0_t1_loop.trips) : Vec F S1x16x56x513 .f32 :=
  View.ld x3 (Rect.unit (s := S1x80x56x513) (k0_off2 k) S1x16x56x513.size (k0_off2_inb k))

/-- Class 0 of the scores block. -/
def class0 (x3 : Vec F S1x80x56x513 .f32) : Vec F S1x1x56x513 .f32 :=
  View.ld x3 (Rect.unit (s := S1x80x56x513) ![0, 0, 0, 0] S1x1x56x513.size inb_S1x80x56x513_S1x1x56x513_0_0_0_0)

/-- The per-pixel sum carried into chunk `k`: zero, then chunk after chunk. -/
def loopVal (x3 : Vec F S1x80x56x513 .f32) (x4 : Vec F S1x56x513 .i32) : ℕ → FVec F S56x513 .f32
  | 0 => k0_pay5
  | k + 1 =>
    if h : k < k0_t1_loop.trips then k0_pay6 x4 ⟨k, h⟩ (loopVal x3 x4 k) (chunk x3 ⟨k, h⟩) else loopVal x3 x4 k

/-- The tile is its image's first: the accumulator is cleared. -/
def reset (i : grid0.Coords) : BitVec 1 :=
  Scalar.cmpi .ne (Scalar.extui (Scalar.cmpi .eq (BitVec.ofNat 32 (i 1).val) 0#32)) 0#32

/-- The accumulator after the point, from the two blocks, the image's largest target `w` and the accumulator before. -/
def accStep (i : grid0.Coords) (x3 : Vec F S1x80x56x513 .f32) (x4 : Vec F S1x56x513 .i32) (w : Elt F .i32)
    (fs : FVec F S8x128 .f32) : FVec F S8x128 .f32 :=
  k0_pay1 (k0_pay7 i x4 w (loopVal x3 x4 k0_t1_loop.trips) (class0 x3)) (if reset i = 1#1 then k0_pay3 else fs)

/-- The result's block after the point: the accumulator at the image's last tile, else as it was. -/
def outStep (i : grid0.Coords) (x5 : Vec F S1x8x128 .f32) (acc : FVec F S8x128 .f32) : Vec F S1x8x128 .f32 :=
  if k0_cond2 i = 1#1 then k0_pay2 acc else x5

end Cert.KernelIdeal.Hand

end
-- ==== Proof.KI.BodyValue.lean ====
/-
  What the body's run leaves, read as the payload functions of the two input blocks: the accumulator after a point is
  `accStep` of the blocks, the image's largest target and the accumulator before; the result's block is `outStep` of it.
-/
import proofs.«405709_j67010079752779_3_alg».proof.Proof.KI.Body
import proofs.«405709_j67010079752779_3_alg».proof.Proof.KI.Payload
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem

variable {F : FTy → Type} [FloatOps F]

/-- The image's largest target as the body reads it: the table's word at the point's image. -/
def tabWord (c : Dev nD) (i : grid0.Coords) (tb : Bf (F := F) c Mtab) : Elt F .i32 :=
  (tb : S8.Idx → Elt F .i32) (ix1 ⟨(i 0).val, (i 0).isLt⟩)

/-! ## The class loop: one trip, then all of them -/

/-- One trip of the class loop yields the trip's payload of the carried sum and the trip's sixteen classes: the one
    load of the trip reads the scores block through the trip's rectangle. -/
theorem tripR_eq (𝒱 : Variants) (c : Dev nD) (bd : Option 𝒱.V) (i : grid0.Coords)
    (a2 : Memref sig .tc .smem S8 .i32) (ha2 : a2.IsWhole)
    (M3 : Memref sig .tc .vmem S1x80x56x513 .f32) (h3 : M3.IsWhole)
    (M4 : Memref sig .tc .vmem S1x56x513 .i32) (h4 : M4.IsWhole)
    (M5 : Memref sig .tc .vmem S1x8x128 .f32) (h5 : M5.IsWhole)
    (a6 : Memref sig .tc .vmem S8x128 .f32) (ha6 : a6.IsWhole)
    (x3 : Vec F S1x80x56x513 .f32) (x4 : Vec F S1x56x513 .i32)
    (k : Fin k0_t1_loop.trips) (acc : FVec F S56x513 .f32) :
    tripR_k0_t1 (F := F) 𝒱 c bd i a2 ha2 M3 h3 M4 h4 M5 h5 a6 ha6 x4 (h3.unread x3) k acc
      = k0_pay6 x4 k acc (chunk x3 k) := by
  unfold tripR_k0_t1 trip_k0_t1
  dsimp only
  rw [View.readAt_eq_ld, h3.read_unread]
  rfl

/-- The sum carried into trip `n` is `loopVal` at `n`: by induction on the trip, both sides taking the same step. -/
theorem st_eq (𝒱 : Variants) (c : Dev nD) (bd : Option 𝒱.V) (i : grid0.Coords)
    (a2 : Memref sig .tc .smem S8 .i32) (ha2 : a2.IsWhole)
    (M3 : Memref sig .tc .vmem S1x80x56x513 .f32) (h3 : M3.IsWhole)
    (M4 : Memref sig .tc .vmem S1x56x513 .i32) (h4 : M4.IsWhole)
    (M5 : Memref sig .tc .vmem S1x8x128 .f32) (h5 : M5.IsWhole)
    (a6 : Memref sig .tc .vmem S8x128 .f32) (ha6 : a6.IsWhole)
    (x3 : Vec F S1x80x56x513 .f32) (x4 : Vec F S1x56x513 .i32) :
    ∀ n : ℕ, st_k0_t1 (F := F) 𝒱 c bd i a2 ha2 M3 h3 M4 h4 M5 h5 a6 ha6 x4 (h3.unread x3) k0_pay5 n
      = loopVal x3 x4 n
  | 0 => rfl
  | n + 1 => by
    rw [st_k0_t1.eq_2, loopVal, st_eq 𝒱 c bd i a2 ha2 M3 h3 M4 h4 M5 h5 a6 ha6 x3 x4 n]
    unfold st_k0_t1Step
    by_cases h : n < k0_t1_loop.trips
    · rw [dif_pos h, dif_pos h, tripR_eq]
    · rw [dif_neg h, dif_neg h]

/-! ## The loads and stores of whole buffers -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- A store of the whole accumulator leaves its payload, whatever was there. -/
theorem acc_writes (c : Dev nD) (f : Bf (F := F) c Macc) (w : FVec F S8x128 .f32) :
    (Macc.view.writes (Elt F) f [⟨Rect.unit ![0, 0] S8x128.size inb_S8x128_S8x128_0_0, w⟩] : S8x128.Idx → F .f32) = w := by
  have e := View.read_writes_eq_canon (Val := Elt F) Macc.view f
    [(⟨Rect.unit ![0, 0] S8x128.size inb_S8x128_S8x128_0_0, w⟩ : View.Piece (Elt F) S8x128 .f32)]
    (fun y => ⟨_, List.mem_singleton_self _, View.mem_set_unit_zero hz2 inb_S8x128_S8x128_0_0 y⟩)
  rw [View.canon_unit_zero (S := S8x128) hz2] at e
  exact e

/-- The load of the whole accumulator after the possible clearing reads zero at the image's first tile, else the
    accumulator as it was. -/
theorem acc_read (c : Dev nD) (i : grid0.Coords) (fs : Bf (F := F) c Macc) :
    View.readAt (Elt F) Macc.view (Rect.unit ![0, 0] S8x128.size inb_S8x128_S8x128_0_0).toLoadRect
        (if hc : reset i = 1#1 then
          Macc.view.writes (Elt F) fs [⟨Rect.unit ![0, 0] S8x128.size inb_S8x128_S8x128_0_0, k0_pay3⟩]
        else fs)
      = if reset i = 1#1 then k0_pay3 else (fs : S8x128.Idx → F .f32) := by
  refine (Memref.readAt_unit_zero (Elt F) cc0_scratch0 hz2 inb_S8x128_S8x128_0_0 _).trans ?_
  by_cases h : reset i = 1#1
  · rw [dif_pos h, if_pos h]; exact acc_writes c fs _
  · rw [dif_neg h, if_neg h]

/-- The load of the whole targets block reads it. -/
theorem m4_read (M4 : Memref sig .tc .vmem S1x56x513 .i32) (h4 : M4.IsWhole) (x4 : Vec F S1x56x513 .i32) :
    View.readAt (Elt F) M4.view (Rect.unit ![0, 0, 0] S1x56x513.size inb_S1x56x513_S1x56x513_0_0_0).toLoadRect
        (h4.unread x4) = x4 := by
  rw [View.readAt_eq_ld, h4.read_unread, View.ld_unit_zero (S := S1x56x513) hz3]

/-- The load of the first class of the scores block reads `class0` of it. -/
theorem m3_read (M3 : Memref sig .tc .vmem S1x80x56x513 .f32) (h3 : M3.IsWhole) (x3 : Vec F S1x80x56x513 .f32) :
    View.readAt (Elt F) M3.view
        (Rect.unit (s := S1x80x56x513) ![0, 0, 0, 0] S1x1x56x513.size inb_S1x80x56x513_S1x1x56x513_0_0_0_0).toLoadRect
        (h3.unread x3) = class0 x3 := by
  rw [View.readAt_eq_ld, h3.read_unread]
  rfl

/-- The word the body loads from the table is the table's entry at the point's image: the load's one index is the
    point's first coordinate. -/
theorem tab_read (c : Dev nD) (i : grid0.Coords) (tb : Bf (F := F) c Mtab)
    (h : 0 < (Rect.unit (s := S8) (k0_off1 i) S1.size (k0_off1_inb i)).shape.numel) :
    View.readAt (Elt F) Mtab.view (Rect.unit (s := S8) (k0_off1 i) S1.size (k0_off1_inb i)).toLoadRect tb (Shape.Idx.first h)
      = tabWord c i tb := by
  rw [View.readAt_eq_ld]
  unfold tabWord
  show (tb : S8.Idx → Elt F .i32) ((Rect.unit (s := S8) (k0_off1 i) S1.size (k0_off1_inb i)).idx (Shape.Idx.first h)) = _
  congr 1
  funext a
  apply Fin.ext
  match a with
  | ⟨0, _⟩ =>
    show k0_off1 i 0 + 1 * 0 = (i 0).val
    rw [Gen.k0_off1_eq]
    rfl

/-! ## The payload the body stores into the accumulator -/

/-- The body's stored payload, over what its loads read, is `accStep`. -/
theorem accPay (c : Dev nD) (i : grid0.Coords)
    (M3 : Memref sig .tc .vmem S1x80x56x513 .f32) (h3 : M3.IsWhole)
    (M4 : Memref sig .tc .vmem S1x56x513 .i32) (h4 : M4.IsWhole)
    (M5 : Memref sig .tc .vmem S1x8x128 .f32) (h5 : M5.IsWhole)
    (tb : Bf (F := F) c Mtab) (x3 : Vec F S1x80x56x513 .f32) (x4 : Vec F S1x56x513 .i32)
    (fs : Bf (F := F) c Macc)
    (v3 : Vec F S1x56x513 .i32) (hv3 : v3 = x4) (w : Elt F .i32) (hw : w = tabWord c i tb)
    (v10 : Vec F S1x1x56x513 .f32) (hv10 : v10 = class0 x3)
    (v41 : Vec F S8x128 .f32) (hv41 : v41 = if reset i = 1#1 then k0_pay3 else (fs : S8x128.Idx → F .f32)) :
    k0_pay1 (k0_pay7 i v3 w
        (st_k0_t1 (F := F) Variants.none c none i Mtab (Memref.isWhole_whole _) M3 h3 M4 h4 M5 h5 Macc
          (Memref.isWhole_whole _) v3 (h3.unread x3) k0_pay5 k0_t1_loop.trips) v10) v41
      = accStep i x3 x4 (tabWord c i tb) (fs : S8x128.Idx → F .f32) := by
  subst hv3 hw hv10 hv41
  unfold accStep
  rw [st_eq]

/-! ## What the run leaves -/

theorem bodyRun_acc (c : Dev nD) (i : grid0.Coords)
    (M3 : Memref sig .tc .vmem S1x80x56x513 .f32) (h3 : M3.IsWhole)
    (M4 : Memref sig .tc .vmem S1x56x513 .i32) (h4 : M4.IsWhole)
    (M5 : Memref sig .tc .vmem S1x8x128 .f32) (h5 : M5.IsWhole)
    (tb : Bf (F := F) c Mtab) (x3 : Vec F S1x80x56x513 .f32) (x4 : Vec F S1x56x513 .i32) (x5 : Vec F S1x8x128 .f32)
    (fs : Bf (F := F) c Macc) :
    ((bodyRun c i M3 h3 M4 h4 M5 h5 tb x3 x4 x5 fs).1.1 : S8x128.Idx → F .f32)
      = accStep i x3 x4 (tabWord c i tb) (fs : S8x128.Idx → F .f32) := by
  unfold bodyRun
  dsimp only
  sl_unfold_run_names
  refine (acc_writes c _ _).trans ?_
  exact accPay c i M3 h3 M4 h4 M5 h5 tb x3 x4 fs _ (m4_read M4 h4 x4) _ (tab_read c i tb _) _ (m3_read M3 h3 x3)
    _ (acc_read c i fs)

theorem bodyRun_out (c : Dev nD) (i : grid0.Coords)
    (M3 : Memref sig .tc .vmem S1x80x56x513 .f32) (h3 : M3.IsWhole)
    (M4 : Memref sig .tc .vmem S1x56x513 .i32) (h4 : M4.IsWhole)
    (M5 : Memref sig .tc .vmem S1x8x128 .f32) (h5 : M5.IsWhole)
    (tb : Bf (F := F) c Mtab) (x3 : Vec F S1x80x56x513 .f32) (x4 : Vec F S1x56x513 .i32) (x5 : Vec F S1x8x128 .f32)
    (fs : Bf (F := F) c Macc) :
    M5.view.read (Elt F) (bodyRun c i M3 h3 M4 h4 M5 h5 tb x3 x4 x5 fs).1.2
      = outStep i x5 (accStep i x3 x4 (tabWord c i tb) (fs : S8x128.Idx → F .f32)) := by
  unfold bodyRun
  dsimp only
  unfold outStep
  by_cases h : k0_cond2 i = 1#1
  · rw [dif_pos h, if_pos h]
    rw [View.read_writes_eq_canon _ _ _ (fun y => ⟨_, List.mem_singleton_self _,
        View.mem_set_unit_zero hz3 inb_S1x8x128_S1x8x128_0_0_0 y⟩),
      View.canon_unit_zero (S := S1x8x128) hz3]
    sl_unfold_run_names
    rw [View.readCov_unit_zero (S := S8x128) _ hz2]
    exact congrArg k0_pay2
      (accPay c i M3 h3 M4 h4 M5 h5 tb x3 x4 fs _ (m4_read M4 h4 x4) _ (tab_read c i tb _) _ (m3_read M3 h3 x3)
        _ (acc_read c i fs))
  · rw [dif_neg h, if_neg h, h5.read_unread]

end Cert.KernelIdeal.Hand

end
-- ==== Proof.Spec.lean ====
/-
  The two programs' results as formulas.

  For eight images of 385 × 513 pixels, each pixel carries 80 scores `p_k` and an integer target `t`; an image's
  largest target is `tm`. With `a_k = p_k + ε` and `b_k = (1 − p_k) + ε`:

  * the kernel takes, at each pixel, the sum over the classes of `log a_k` where `k ≤ t` and `log b_k` elsewhere,
    plus — at the pixels whose target is `tm − 1` — `log (a_0 / b_0)`; it sums these over the valid rows of each
    tile of 56 rows, divides the tile's sum by 80, adds the seven tiles of an image up from zero, adds the eight
    images up from zero, negates and divides by the pixel count;
  * the reference gives class `k` the weight `w_k = [k ≤ t]`, class 0 one more at the pixels whose target is
    `tm − 1`, takes `log a_k · w_k + log b_k · (1 − w_k)`, sums over the classes from zero, divides by 80, sums over
    all pixels from zero, divides by the pixel count and negates.

  Every float literal stays the word the programs print; all sums are in the extended reals.
-/
import Idealize.ShloMosaic.PureOps.Ideal
import Idealize.ShloMosaic.Lib.ValueIdx

noncomputable section

namespace Cert.Spec

open Idealize.ShloMosaic Idealize.ShloMosaic.ValueIdx

/-- The scores `[8, 80, 385, 513]`, the targets `[8, 385, 513]`, and each image's largest target. -/
abbrev Scores : Type := (⟨4, ![8, 80, 385, 513]⟩ : Shape).Idx → EReal
abbrev Targets : Type := (⟨3, ![8, 385, 513]⟩ : Shape).Idx → BitVec 32

/-- The literals both programs carry: ε, one, eighty, and the pixel count 8 · 385 · 513. -/
def eps : EReal := Ideal.ofBits .f32 0x2D2FEBFF#32
def one : EReal := Ideal.ofBits .f32 0x3F800000#32
def k80 : EReal := Ideal.ofBits .f32 0x42A00000#32
def cnt : EReal := Ideal.ofBits .f32 0x49C0E040#32

/-- Class `k` is at most the target (signed), as a bit; the target is the image's largest less one, as a bit; and a
    bit as a number. -/
def leB (k : Fin 80) (t : BitVec 32) : BitVec 1 := IntOp.cmpi .sle (BitVec.ofNat 32 k.val) t
def exB (t tm : BitVec 32) : BitVec 1 := IntOp.cmpi .eq t (IntOp.subi tm 1#32)
def ind (b : BitVec 1) : EReal := if b = 1#1 then 1 else 0

/-- Each image's largest target, as both programs compute it: the signed maximum over the image from the least integer. -/
def tmOf (T : Targets) (hr : (⟨3, ![8, 385, 513]⟩ : Shape).ReducesTo [1, 2] ⟨1, ![8]⟩) (h0 : 0 < (⟨0, ![]⟩ : Shape).numel)
    (n : Fin 8) : BitVec 32 :=
  Host.reduce IntOp.maxsi T (constantI ⟨0, ![]⟩ 32 2147483648#32) hr h0 (ix1 n)

variable (X : Scores) (T : Targets) (tm : Fin 8 → BitVec 32)

/-! ## The kernel -/

/-- The score the kernel takes the logarithm of: `p` where the class counts, `1 − p` elsewhere. -/
def sel (p : EReal) (b : BitVec 1) : EReal := if b = 1#1 then p else one - p

/-- One pixel's value in the kernel. -/
def pixK (n : Fin 8) (y : Fin 385) (x : Fin 513) : EReal :=
  (∑ k : Fin 80, Ideal.log (sel (X (ix4 n k y x)) (leB k (T (ix3 n y x))) + eps))
    + ind (exB (T (ix3 n y x)) (tm n))
        * Ideal.log (Ideal.div (X (ix4 n 0 y x) + eps) ((one - X (ix4 n 0 y x)) + eps))

/-- A tile's rows past the image's last row count zero. -/
def rowK (n : Fin 8) (h : Fin 7) (r : Fin 56) (x : Fin 513) : EReal :=
  if hv : 56 * h.val + r.val < 385 then pixK X T tm n ⟨56 * h.val + r.val, hv⟩ x else 0

/-- A tile's share: its rows' sums summed, over eighty. -/
def tileK (n : Fin 8) (h : Fin 7) : EReal := Ideal.div (∑ r : Fin 56, ∑ x : Fin 513, rowK X T tm n h r x) k80

/-- An image's seven tiles added up from zero, in order. -/
def imgK (n : Fin 8) : EReal :=
  0 + tileK X T tm n 0 + tileK X T tm n 1 + tileK X T tm n 2 + tileK X T tm n 3 + tileK X T tm n 4 + tileK X T tm n 5
    + tileK X T tm n 6

/-- The kernel's result. -/
def kernelVal : EReal := Ideal.div (-(0 + ∑ n : Fin 8, imgK X T tm n)) cnt

/-! ## The reference -/

/-- Class `k`'s weight at a pixel of target `t` in an image of largest target `m`. -/
def wR (k : Fin 80) (t m : BitVec 32) : EReal := if k = 0 then ind (leB 0 t) + ind (exB t m) else ind (leB k t)

/-- One class's term at one pixel in the reference. -/
def llR (n : Fin 8) (k : Fin 80) (y : Fin 385) (x : Fin 513) : EReal :=
  Ideal.log (X (ix4 n k y x) + eps) * wR k (T (ix3 n y x)) (tm n)
    + Ideal.log ((one - X (ix4 n k y x)) + eps) * (one - wR k (T (ix3 n y x)) (tm n))

/-- The reference's result. -/
def refVal : EReal :=
  -(Ideal.div (0 + ∑ i : (⟨3, ![8, 385, 513]⟩ : Shape).Idx, Ideal.div (0 + ∑ k : Fin 80, llR X T tm (i 0) k (i 1) (i 2)) k80) cnt)

/-- Where the two agree: every score a real number with both logarithms' arguments positive. -/
def Dom : Prop := ∀ i, ∃ p : ℝ, X i = (p : EReal) ∧ 0 < X i + eps ∧ 0 < (one - X i) + eps

end Cert.Spec

end
-- ==== Proof.KI.TileValue.lean ====
/-
  One point's arithmetic over the extended reals: where the two blocks agree with the arrays on the tile's rows inside
  the image, the accumulator after the point is the accumulator before — zero at the image's first tile — plus the
  tile's share, at every entry. Rows past the image's end do not enter: the body replaces their sums by zero before it
  adds the tile up.
-/
import proofs.«405709_j67010079752779_3_alg».proof.Proof.KI.Payload
import proofs.«405709_j67010079752779_3_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Data.Fintype.BigOperators
import Mathlib.Logic.Equiv.Fin.Basic

noncomputable section

namespace Cert.KernelIdeal.Hand

open Cert.KernelIdeal Cert.KernelIdeal.Gen
open Idealize.ShloMosaic Idealize.ShloMosaic.ValueIdx

namespace TileValue

theorem trips5 : k0_t1_loop.trips = 5 := by decide

/-- Chunk `k` at class `kk` of the chunk is class `16 k + kk` of the block. -/
theorem chunk_apply (x3 : Vec Ideal S1x80x56x513 .f32) (k : Fin k0_t1_loop.trips) (kk : Fin 16) (r : Fin 56) (x : Fin 513)
    (hk : 16 * k.val + kk.val < 80) :
    chunk x3 k (ix4 (0 : Fin 1) kk r x) = x3 (ix4 (0 : Fin 1) ⟨16 * k.val + kk.val, hk⟩ r x) := by
  have h0 : k0_off2 k 0 = 0 := by rw [k0_off2_eq k]; rfl
  have h1 : k0_off2 k 1 = 16 * k.val := by rw [k0_off2_eq k]; rfl
  have h2 : k0_off2 k 2 = 0 := by rw [k0_off2_eq k]; rfl
  have h3 : k0_off2 k 3 = 0 := by rw [k0_off2_eq k]; rfl
  unfold chunk
  show x3 _ = x3 _
  refine congrArg x3 (funext fun a => Fin.ext ?_)
  match a with
  | ⟨0, _⟩ => show k0_off2 k 0 + 1 * 0 = 0; omega
  | ⟨1, _⟩ => show k0_off2 k 1 + 1 * kk.val = 16 * k.val + kk.val; omega
  | ⟨2, _⟩ => show k0_off2 k 2 + 1 * r.val = r.val; omega
  | ⟨3, _⟩ => show k0_off2 k 3 + 1 * x.val = x.val; omega

theorem class0_apply (x3 : Vec Ideal S1x80x56x513 .f32) (r : Fin 56) (x : Fin 513) :
    class0 x3 (ix4 (0 : Fin 1) (0 : Fin 1) r x) = x3 (ix4 (0 : Fin 1) (0 : Fin 80) r x) := by
  unfold class0
  show x3 _ = x3 _
  refine congrArg x3 (funext fun a => Fin.ext ?_)
  match a with
  | ⟨0, _⟩ => rfl
  | ⟨1, _⟩ => rfl
  | ⟨2, _⟩ => show 0 + 1 * r.val = r.val; omega
  | ⟨3, _⟩ => show 0 + 1 * x.val = x.val; omega

/-- The class number of lane `kk` of chunk `k`, as the body computes it, is `16 k + kk`. -/
theorem kidx_eq : ∀ (k : Fin 5) (kk : Fin 16),
    IntOp.addi (BitVec.ofNat 32 kk.val) (Scalar.muli (Scf.iv 0#32 1#32 k.val) 16#32) = BitVec.ofNat 32 (16 * k.val + kk.val) := by
  decide

/-- A sum over the sixteen lanes of a chunk, at a pixel. -/
theorem lanes_sum (src : FVec Ideal S16x56x513 .f32) (h : S16x56x513.Reduces [0] S56x513) (hφ : FKind.Formats .f32)
    (hacc : (0x00000000#32 : BitVec 32) = FKind.add.neutral .f32 hφ) (r : Fin 56) (x : Fin 513) :
    multiReduction .add [0] S56x513 src 0x00000000#32 h hφ hacc (ix2 r x) = ∑ kk : Fin 16, src (ix3 kk r x) := by
  refine (Ideal.multiReduction_add_single src 0x00000000#32 h hφ hacc (ix2 r x)).trans ?_
  refine Finset.sum_congr rfl fun kk _ => congrArg src (funext fun a => Fin.ext ?_)
  match a with
  | ⟨0, _⟩ => rfl
  | ⟨1, _⟩ => rfl
  | ⟨2, _⟩ => rfl

/-- The lane numbers `[16, 1, 1]` spread over a chunk read lane `kk` at `(kk, r, x)`. -/
theorem bcast_lane {α : Type} (v : (⟨3, ![16, 1, 1]⟩ : Shape).Idx → α) (h : S16x1x1.Broadcasts S16x56x513)
    (kk : Fin 16) (r : Fin 56) (x : Fin 513) :
    broadcastTo S16x56x513 v h (ix3 kk r x) = v (ix3 kk (0 : Fin 1) (0 : Fin 1)) :=
  broadcastTo_apply v h (ix3 kk r x) (ix3 kk (0 : Fin 1) (0 : Fin 1)) fun a =>
    match a with
    | ⟨0, _⟩ => rfl
    | ⟨1, _⟩ => rfl
    | ⟨2, _⟩ => rfl

/-- The targets `[1, 56, 513]` spread over a chunk read the pixel at `(kk, r, x)`. -/
theorem bcast_pix {α : Type} (v : (⟨3, ![1, 56, 513]⟩ : Shape).Idx → α) (h : S1x56x513.Broadcasts S16x56x513)
    (kk : Fin 16) (r : Fin 56) (x : Fin 513) :
    broadcastTo S16x56x513 v h (ix3 kk r x) = v (ix3 (0 : Fin 1) r x) :=
  broadcastTo_apply v h (ix3 kk r x) (ix3 (0 : Fin 1) r x) fun a =>
    match a with
    | ⟨0, _⟩ => rfl
    | ⟨1, _⟩ => rfl
    | ⟨2, _⟩ => rfl

theorem pay4_apply (x4 : Vec Ideal S1x56x513 .i32) (r : Fin 56) (x : Fin 513) :
    k0_pay4 (F := Ideal) x4 (ix2 r x) = x4 (ix3 (0 : Fin 1) r x) := by
  unfold k0_pay4
  exact shapeCast_1ab_ab_apply _ _ r x

/-- One chunk's step at a pixel: the sum carried in plus, over the chunk's sixteen classes, the logarithm of the
    selected score plus ε. -/
theorem pay6_apply (x4 : Vec Ideal S1x56x513 .i32) (k : Fin k0_t1_loop.trips) (acc : FVec Ideal S56x513 .f32)
    (v : Vec Ideal S1x16x56x513 .f32) (r : Fin 56) (x : Fin 513) (hk : ∀ kk : Fin 16, 16 * k.val + kk.val < 80) :
    k0_pay6 x4 k acc v (ix2 r x)
      = acc (ix2 r x) + ∑ kk : Fin 16,
          Ideal.log (Cert.Spec.sel (v (ix4 (0 : Fin 1) kk r x))
            (Cert.Spec.leB ⟨16 * k.val + kk.val, hk kk⟩ (x4 (ix3 (0 : Fin 1) r x))) + Cert.Spec.eps) := by
  unfold k0_pay6
  refine congrArg (acc (ix2 r x) + ·) ?_
  refine (lanes_sum _ _ _ _ r x).trans ?_
  refine Finset.sum_congr rfl fun kk _ => ?_
  have e54 : shapeCast S16x56x513 v shapeCasts_S1x16x56x513_S16x56x513 (ix3 kk r x) = v (ix4 (0 : Fin 1) kk r x) :=
    shapeCast_1abc_abc_apply _ _ kk r x
  have e60 : broadcastTo S16x56x513
        (addi (iota .tc S16x1x1 32 [0] iota_S16x1x1_d0_w32) (broadcast S16x1x1 (Scalar.muli (Scf.iv 0#32 1#32 k.val) 16#32)))
        broadcasts_S16x1x1_S16x56x513 (ix3 kk r x) = BitVec.ofNat 32 (16 * k.val + kk.val) := by
    refine (bcast_lane _ _ kk r x).trans ?_
    show IntOp.addi (iota .tc S16x1x1 32 [0] iota_S16x1x1_d0_w32 (ix3 kk (0 : Fin 1) (0 : Fin 1))) _ = _
    rw [iota_single_apply]
    exact kidx_eq (k.cast trips5) kk
  have e61 : broadcastTo S16x56x513 (shapeCast S1x56x513 (k0_pay4 (F := Ideal) x4) shapeCasts_S56x513_S1x56x513)
        broadcasts_S1x56x513_S16x56x513 (ix3 kk r x) = x4 (ix3 (0 : Fin 1) r x) :=
    (bcast_pix _ _ kk r x).trans ((shapeCast_ab_1ab_apply _ _ (0 : Fin 1) r x).trans (pay4_apply x4 r x))
  show Ideal.log (Scalar.select (IntOp.cmpi .sle
        (broadcastTo S16x56x513
          (addi (iota .tc S16x1x1 32 [0] iota_S16x1x1_d0_w32) (broadcast S16x1x1 (Scalar.muli (Scf.iv 0#32 1#32 k.val) 16#32)))
          broadcasts_S16x1x1_S16x56x513 (ix3 kk r x))
        (broadcastTo S16x56x513 (shapeCast S1x56x513 (k0_pay4 (F := Ideal) x4) shapeCasts_S56x513_S1x56x513)
          broadcasts_S1x56x513_S16x56x513 (ix3 kk r x)))
      (shapeCast S16x56x513 v shapeCasts_S1x16x56x513_S16x56x513 (ix3 kk r x))
      (Ideal.ofBits .f32 0x3F800000#32 - shapeCast S16x56x513 v shapeCasts_S1x16x56x513_S16x56x513 (ix3 kk r x))
      + Ideal.ofBits .f32 0x2D2FEBFF#32) = _
  rw [e54, e60, e61]
  rfl

/-- Five blocks of sixteen, added up in order from zero, are the sum over all eighty. -/
theorem sum_five_sixteen (g : Fin 80 → EReal) (L : ℕ → EReal) (h0 : L 0 = 0)
    (hs : ∀ (n : ℕ) (hn : n < 5), L (n + 1) = L n + ∑ kk : Fin 16, g ⟨16 * n + kk.val, by omega⟩) :
    L 5 = ∑ c : Fin 80, g c := by
  have hR : ∑ c : Fin 80, g c = ∑ n : Fin 5, ∑ kk : Fin 16, g ⟨16 * n.val + kk.val, by omega⟩ := by
    rw [← Equiv.sum_comp (finProdFinEquiv (m := 5) (n := 16)) g, Fintype.sum_prod_type]
    refine Finset.sum_congr rfl fun n _ => Finset.sum_congr rfl fun kk _ => congrArg g (Fin.ext ?_)
    show kk.val + 16 * n.val = 16 * n.val + kk.val
    omega
  rw [hR, Fin.sum_univ_five, hs 4 (by omega), hs 3 (by omega), hs 2 (by omega), hs 1 (by omega), hs 0 (by omega), h0, zero_add]
  rfl

theorem loopVal_succ (x3 : Vec Ideal S1x80x56x513 .f32) (x4 : Vec Ideal S1x56x513 .i32) (n : ℕ) (h : n < k0_t1_loop.trips) :
    loopVal x3 x4 (n + 1) = k0_pay6 x4 ⟨n, h⟩ (loopVal x3 x4 n) (chunk x3 ⟨n, h⟩) := by
  rw [loopVal, dif_pos h]

/-- After the five chunks a pixel carries the sum over all eighty classes. -/
theorem loopVal_apply (x3 : Vec Ideal S1x80x56x513 .f32) (x4 : Vec Ideal S1x56x513 .i32) (r : Fin 56) (x : Fin 513) :
    loopVal x3 x4 k0_t1_loop.trips (ix2 r x)
      = ∑ c : Fin 80, Ideal.log (Cert.Spec.sel (x3 (ix4 (0 : Fin 1) c r x))
          (Cert.Spec.leB c (x4 (ix3 (0 : Fin 1) r x))) + Cert.Spec.eps) := by
  rw [trips5]
  refine sum_five_sixteen
    (fun c => Ideal.log (Cert.Spec.sel (x3 (ix4 (0 : Fin 1) c r x)) (Cert.Spec.leB c (x4 (ix3 (0 : Fin 1) r x))) + Cert.Spec.eps))
    (fun n => loopVal x3 x4 n (ix2 r x)) ?_ ?_
  · show k0_pay5 (F := Ideal) (ix2 r x) = 0
    exact Ideal.ofBits_zero_f32
  · intro n hn
    have hn' : n < k0_t1_loop.trips := by rw [trips5]; exact hn
    show loopVal x3 x4 (n + 1) (ix2 r x) = _
    rw [loopVal_succ x3 x4 n hn']
    refine (pay6_apply x4 ⟨n, hn'⟩ _ _ r x (fun kk => by show 16 * n + kk.val < 80; omega)).trans ?_
    refine congrArg (loopVal x3 x4 n (ix2 r x) + ·) (Finset.sum_congr rfl fun kk _ => ?_)
    rw [chunk_apply x3 ⟨n, hn'⟩ kk r x (by show 16 * n + kk.val < 80; omega)]

/-- Row `r` of tile `h` is inside the image exactly when the body's signed comparison says so: no wrap below 2^31. -/
theorem rowbit : ∀ (h : Fin 7) (r : Fin 56),
    IntOp.cmpi .slt (IntOp.addi (Scalar.muli (BitVec.ofNat 32 h.val) 56#32) (BitVec.ofNat 32 r.val)) 385#32 = 1#1
      ↔ 56 * h.val + r.val < 385 := by
  decide

/-- A bit widened to a word and read as a signed integer is the bit as a number. -/
theorem sitofp_ind (b : BitVec 1) : FloatOps.sitofp (F := Ideal) .f32 (b.setWidth 32) = Cert.Spec.ind b := by
  rcases BitVec.eq_zero_or_eq_one b with h | h <;> subst h
  · show ((((0#1 : BitVec 1).setWidth 32).toInt : ℝ) : EReal) = _
    rw [show ((0#1 : BitVec 1).setWidth 32).toInt = 0 from by decide]
    simp [Cert.Spec.ind]
  · show ((((1#1 : BitVec 1).setWidth 32).toInt : ℝ) : EReal) = _
    rw [show ((1#1 : BitVec 1).setWidth 32).toInt = 1 from by decide]
    simp [Cert.Spec.ind]

/-- A `[1, 1, 56, 513]` block viewed `[56, 513]` reads `(0, 0, r, x)` at `(r, x)`. -/
theorem cast11_apply {α : Type} (v : (⟨4, ![1, 1, 56, 513]⟩ : Shape).Idx → α) (h : S1x1x56x513.ShapeCasts S56x513)
    (r : Fin 56) (x : Fin 513) :
    shapeCast S56x513 v h (ix2 r x) = v (ix4 (0 : Fin 1) (0 : Fin 1) r x) :=
  shapeCast_apply v h _ _ (by
    rw [Shape.rowMajor_val_four, Shape.rowMajor_val_two]
    show ((0 * 1 + 0) * 56 + r.val) * 513 + x.val = r.val * 513 + x.val
    omega)

/-- The tile's value at a pixel: on a row inside the image, the sum carried out of the loop plus the correction where
    the target is the image's largest less one; on a row past the image's end, zero. -/
theorem pay7_apply (i : grid0.Coords) (h : Fin 7) (hi1 : (i 1).val = h.val) (x4 : Vec Ideal S1x56x513 .i32) (w : BitVec 32)
    (v9 : FVec Ideal S56x513 .f32) (v10 : Vec Ideal S1x1x56x513 .f32) (r : Fin 56) (x : Fin 513) :
    k0_pay7 i x4 w v9 v10 (ix2 r x)
      = if 56 * h.val + r.val < 385 then
          v9 (ix2 r x) + Cert.Spec.ind (Cert.Spec.exB (x4 (ix3 (0 : Fin 1) r x)) w)
            * Ideal.log (Ideal.div (v10 (ix4 (0 : Fin 1) (0 : Fin 1) r x) + Cert.Spec.eps)
                ((Cert.Spec.one - v10 (ix4 (0 : Fin 1) (0 : Fin 1) r x)) + Cert.Spec.eps))
        else 0 := by
  have e11 := cast11_apply v10 shapeCasts_S1x1x56x513_S56x513 r x
  unfold k0_pay7
  show Scalar.select (IntOp.cmpi .slt (IntOp.addi (Scalar.muli (BitVec.ofNat 32 (i 1).val) 56#32)
          (iota .tc S56x513 32 [0] iota_S56x513_d0_w32 (ix2 r x))) 385#32)
        (v9 (ix2 r x) + FloatOps.sitofp (F := Ideal) .f32
              ((IntOp.cmpi .eq (k0_pay4 (F := Ideal) x4 (ix2 r x)) (IntOp.subi w 1#32)).setWidth 32)
            * Ideal.log (Ideal.div
                (shapeCast S56x513 v10 shapeCasts_S1x1x56x513_S56x513 (ix2 r x) + Ideal.ofBits .f32 0x2D2FEBFF#32)
                ((Ideal.ofBits .f32 0x3F800000#32 - shapeCast S56x513 v10 shapeCasts_S1x1x56x513_S56x513 (ix2 r x))
                  + Ideal.ofBits .f32 0x2D2FEBFF#32)))
        (Ideal.ofBits .f32 0x00000000#32) = _
  rw [hi1, iota_single_apply, pay4_apply, e11, sitofp_ind, Ideal.ofBits_zero_f32]
  by_cases hv : 56 * h.val + r.val < 385
  · rw [if_pos hv, (rowbit h r).mpr hv, select_one]
    rfl
  · rw [if_neg hv, eq_zero_of_ne_one (fun e => hv ((rowbit h r).mp e)), select_zero]

/-- A row's sum over its 513 pixels. -/
theorem row_sum (src : FVec Ideal S56x513 .f32) (h : S56x513.Reduces [1] S56) (hφ : FKind.Formats .f32)
    (hacc : (0x00000000#32 : BitVec 32) = FKind.add.neutral .f32 hφ) (r : Fin 56) :
    multiReduction .add [1] S56 src 0x00000000#32 h hφ hacc (ix1 r) = ∑ x : Fin 513, src (ix2 r x) := by
  refine (Ideal.multiReduction_add_single src 0x00000000#32 h hφ hacc (ix1 r)).trans ?_
  refine Finset.sum_congr rfl fun x _ => congrArg src (funext fun a => Fin.ext ?_)
  match a with
  | ⟨0, _⟩ => rfl
  | ⟨1, _⟩ => rfl

/-- The column of row sums added up. -/
theorem col_sum (src : FVec Ideal S56x1 .f32) (h : S56x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ r : Fin 56, src (ix2 r (0 : Fin 1)) := by
  refine (Ideal.multiReduction_add_single src 0x00000000#32 h hφ hacc (ix1 (0 : Fin 1))).trans ?_
  refine Finset.sum_congr rfl fun r _ => congrArg src (funext fun a => Fin.ext ?_)
  match a with
  | ⟨0, _⟩ => rfl
  | ⟨1, _⟩ => rfl

/-- A vector `[56]` stood up as a column `[56, 1]` reads `r` at `(r, 0)`. -/
theorem cast_col {α : Type} (v : (⟨1, ![56]⟩ : Shape).Idx → α) (h : S56.ShapeCasts S56x1) (r : Fin 56) :
    shapeCast S56x1 v h (ix2 r (0 : Fin 1)) = v (ix1 r) :=
  shapeCast_apply v h _ _ (by
    rw [Shape.rowMajor_val_one, Shape.rowMajor_val_two]
    show r.val = r.val * 1 + 0
    omega)

/-- The one number `[1, 1]` spread over `[8, 128]`. -/
theorem bcast_one {α : Type} (v : (⟨2, ![1, 1]⟩ : Shape).Idx → α) (h : S1x1.Broadcasts S8x128) (a : Fin 8) (b : Fin 128) :
    broadcastTo S8x128 v h (ix2 a b) = v (ix2 (0 : Fin 1) (0 : Fin 1)) :=
  broadcastTo_apply v h (ix2 a b) (ix2 (0 : Fin 1) (0 : Fin 1)) fun c =>
    match c with
    | ⟨0, _⟩ => rfl
    | ⟨1, _⟩ => rfl

/-- The accumulator's new entry: the old one plus the tile's sum over eighty. -/
theorem pay1_apply (v34 : FVec Ideal S56x513 .f32) (v41 : Vec Ideal S8x128 .f32) (a : Fin 8) (b : Fin 128) :
    k0_pay1 v34 v41 (ix2 a b) = v41 (ix2 a b) + Ideal.div (∑ r : Fin 56, ∑ x : Fin 513, v34 (ix2 r x)) Cert.Spec.k80 := by
  unfold k0_pay1
  rw [shapeCast_self]
  refine congrArg (v41 (ix2 a b) + ·) ?_
  refine (bcast_one _ _ a b).trans ?_
  rw [shapeCast_self]
  show Ideal.div _ (Ideal.ofBits .f32 0x42A00000#32) = _
  refine congrArg (Ideal.div · Cert.Spec.k80) ?_
  refine (shapeCast_a_1a_apply _ _ (0 : Fin 1) (0 : Fin 1)).trans ?_
  refine (col_sum _ _ _ _).trans ?_
  refine Finset.sum_congr rfl fun r _ => ?_
  exact (cast_col _ _ r).trans (row_sum _ _ _ _ r)

/-- The tile is its image's first exactly when the body's reset bit is set. -/
theorem resetbit : ∀ h : Fin 7,
    Scalar.cmpi .ne (Scalar.extui (Scalar.cmpi .eq (BitVec.ofNat 32 h.val) 0#32)) 0#32 = 1#1 ↔ h.val = 0 := by
  decide

/-- A pixel of the tile, where the blocks agree with the arrays on the rows inside the image: the kernel's pixel value
    on such a row, zero on a row past the image's end. -/
theorem pix_apply (n : Fin 8) (h : Fin 7) (i : grid0.Coords) (hi1 : (i 1).val = h.val)
    (X : Cert.Spec.Scores) (T : Cert.Spec.Targets) (tm : Fin 8 → BitVec 32)
    (x3 : Vec Ideal S1x80x56x513 .f32) (x4 : Vec Ideal S1x56x513 .i32)
    (hx3 : ∀ (k : Fin 80) (r : Fin 56) (x : Fin 513) (hv : 56 * h.val + r.val < 385),
      x3 (ix4 (0 : Fin 1) k r x) = X (ix4 n k ⟨56 * h.val + r.val, hv⟩ x))
    (hx4 : ∀ (r : Fin 56) (x : Fin 513) (hv : 56 * h.val + r.val < 385),
      x4 (ix3 (0 : Fin 1) r x) = T (ix3 n ⟨56 * h.val + r.val, hv⟩ x))
    (r : Fin 56) (x : Fin 513) :
    k0_pay7 i x4 (tm n) (loopVal x3 x4 k0_t1_loop.trips) (class0 x3) (ix2 r x) = Cert.Spec.rowK X T tm n h r x := by
  refine (pay7_apply i h hi1 x4 (tm n) _ _ r x).trans ?_
  unfold Cert.Spec.rowK
  by_cases hv : 56 * h.val + r.val < 385
  · rw [if_pos hv, dif_pos hv, loopVal_apply, class0_apply, hx4 r x hv, hx3 0 r x hv]
    unfold Cert.Spec.pixK
    refine congrArg (· + _) (Finset.sum_congr rfl fun c _ => ?_)
    rw [hx3 c r x hv]
  · rw [if_neg hv, dif_neg hv]

end TileValue

open TileValue in
theorem accStep_ideal (n : Fin 8) (h : Fin 7) (i : grid0.Coords) (hi0 : (i 0).val = n.val) (hi1 : (i 1).val = h.val)
    (X : Cert.Spec.Scores) (T : Cert.Spec.Targets) (tm : Fin 8 → BitVec 32)
    (x3 : Vec Ideal S1x80x56x513 .f32) (x4 : Vec Ideal S1x56x513 .i32)
    (hx3 : ∀ (k : Fin 80) (r : Fin 56) (x : Fin 513) (hv : 56 * h.val + r.val < 385),
      x3 (ix4 (0 : Fin 1) k r x) = X (ix4 n k ⟨56 * h.val + r.val, hv⟩ x))
    (hx4 : ∀ (r : Fin 56) (x : Fin 513) (hv : 56 * h.val + r.val < 385),
      x4 (ix3 (0 : Fin 1) r x) = T (ix3 n ⟨56 * h.val + r.val, hv⟩ x))
    (fs : FVec Ideal S8x128 .f32) :
    accStep (F := Ideal) i x3 x4 (tm n) fs
      = fun j => (if h.val = 0 then (0 : EReal) else fs j) + Cert.Spec.tileK X T tm n h := by
  funext j
  obtain ⟨a, b, rfl⟩ : ∃ (a : Fin 8) (b : Fin 128), j = ix2 a b := ⟨j 0, j 1, eq_ix2 j⟩
  unfold accStep
  refine (pay1_apply _ _ a b).trans ?_
  unfold Cert.Spec.tileK
  have hsum : ∑ r : Fin 56, ∑ x : Fin 513,
        k0_pay7 i x4 (tm n) (loopVal x3 x4 k0_t1_loop.trips) (class0 x3) (ix2 r x)
      = ∑ r : Fin 56, ∑ x : Fin 513, Cert.Spec.rowK X T tm n h r x :=
    Finset.sum_congr rfl fun r _ => Finset.sum_congr rfl fun x _ => pix_apply n h i hi1 X T tm x3 x4 hx3 hx4 r x
  rw [hsum]
  refine congrArg (· + _) ?_
  have hr : reset i = 1#1 ↔ h.val = 0 := by
    unfold reset
    rw [hi1]
    exact resetbit h
  by_cases h0 : h.val = 0
  · rw [if_pos h0, if_pos (hr.mpr h0)]
    unfold k0_pay3
    rw [shapeCast_self]
    exact Ideal.ofBits_zero_f32
  · rw [if_neg h0, if_neg (fun e => h0 (hr.mp e))]

end Cert.KernelIdeal.Hand

end
-- ==== Proof.KI.BlockRead.lean ====
/-
  A fetched block read at a row inside the image.

  Grid point `t = 7 n + h` handles rows `56 h … 56 h + 55` of image `n`. Its scores block is classes 0 … 79 of those
  rows, its targets block those rows; the last tile's block overhangs the image (385 = 6 · 56 + 49) and the fetch fills
  only the part inside. At a row inside the image the fetched buffer holds the array's entry, whatever filled the rest.
-/
import proofs.«405709_j67010079752779_3_alg».proof.Proof.KI.Kit
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## The grid: point `7 n + h` is image `n`, tile `h` -/

/-- Seven consecutive points share an image; -/
private theorem stride0 : grid0.stride 0 = 7 := by decide
/-- each point is its own tile. -/
private theorem stride1 : grid0.stride 1 = 1 := by decide

/-- The image of point `7 n + h` is `n`: `(7 n + h) / 7 mod 8 = n` for `h < 7`, `n < 8`. -/
theorem gcoords0 (t : Fin grid0.N) (n : Fin 8) (h : Fin 7) (ht : t.val = 7 * n.val + h.val) :
    (grid0.coords t 0).val = n.val := by
  show t.val / grid0.stride 0 % 8 = n.val
  rw [stride0]
  have := n.isLt; have := h.isLt
  omega
/-- Its tile is `h`: `(7 n + h) mod 7 = h`. -/
theorem gcoords1 (t : Fin grid0.N) (n : Fin 8) (h : Fin 7) (ht : t.val = 7 * n.val + h.val) :
    (grid0.coords t 1).val = h.val := by
  show t.val / grid0.stride 1 % 7 = h.val
  rw [stride1]
  have := n.isLt; have := h.isLt
  omega

/-- The point's coordinates: the image, then the tile. -/
theorem coords0 (t : Fin (cfgM m).N) (n : Fin 8) (h : Fin 7) (ht : t.val = 7 * n.val + h.val) :
    ((cfgM m).grid.coords t 0).val = n.val := gcoords0 t n h ht
theorem coords1 (t : Fin (cfgM m).N) (n : Fin 8) (h : Fin 7) (ht : t.val = 7 * n.val + h.val) :
    ((cfgM m).grid.coords t 1).val = h.val := gcoords1 t n h ht

/-! ## The index maps

  The maps pass the coordinates through 32-bit words; a coordinate is below 8, so the word holds it. -/

/-- The scores block of point `(n, h)` is block `(n, 0, h, 0)`: image `n`, all classes, tile `h` of the rows, all columns. -/
theorem tr0_eq (i : grid0.Coords) : cc0_transform_0 i = ![(i 0).val, 0, (i 1).val, 0] := by
  have h0 : (i 0).val < 8 := (i 0).isLt
  have h1 : (i 1).val < 7 := (i 1).isLt
  unfold cc0_transform_0
  simp only [BitVec.toNat_ofNat]
  rw [Nat.mod_eq_of_lt (show (i 0).val < 2 ^ 32 by omega), Nat.mod_eq_of_lt (show (i 1).val < 2 ^ 32 by omega)]

/-- The targets block of point `(n, h)` is block `(n, h, 0)`: image `n`, tile `h` of the rows, all columns. -/
theorem tr1_eq (i : grid0.Coords) : cc0_transform_1 i = ![(i 0).val, (i 1).val, 0] := by
  have h0 : (i 0).val < 8 := (i 0).isLt
  have h1 : (i 1).val < 7 := (i 1).isLt
  unfold cc0_transform_1
  simp only [BitVec.toNat_ofNat]
  rw [Nat.mod_eq_of_lt (show (i 0).val < 2 ^ 32 by omega), Nat.mod_eq_of_lt (show (i 1).val < 2 ^ 32 by omega)]

/-! ## A cut block read inside the array -/

/-- A fetch's fill, read at an index of the part the transfer moves, is the fetched block there. -/
private theorem fill_at {G : Pipeline.Grid} (w : Pipeline.Window sig G) {α : Type} (i : G.Coords) (d : w.block.Idx → α)
    (g : (w.xblock i).Idx → α) (j : w.block.Idx) (hj : ∀ a, (j a).val < w.xsize i a) :
    w.fill i d g j = g fun a => ⟨(j a).val, hj a⟩ := by
  unfold Pipeline.Window.fill
  rw [dif_pos ((w.moved_iff i j).mpr hj)]

/-- A coordinate `j` of block `ix` (of size `k`) whose place `ix k + j` in the array is below the array's extent `d` is
    among those the cut keeps: an uncut block keeps all `k`, a cut one the first `d - ix k`. -/
private theorem lt_extent_of {ix k d j : Nat} (hj : j < k) (hd : ix * k + j < d) : j < (Pipeline.Clip.of ix k d).extent k := by
  unfold Pipeline.Clip.of; split
  · exact hj
  · show j < d - ix * k; omega

/-- Scores: entry `(0, k, r, x)` of the buffer fetched at point `7 n + h` is the array's entry `(n, k, 56 h + r, x)`
    when row `56 h + r` is inside the image. The fetch moves that entry (on the row axis `r` is below the cut, on
    the others the block is uncut), and the block's entry `(0, k, r, x)` sits in the array at
    `(n · 1 + 0, 0 · 80 + k, h · 56 + r, 0 · 513 + x)`. -/
theorem fetched0_at (c : Dev nD) (t : Fin (cfgM m).N) (n : Fin 8) (h : Fin 7) (ht : t.val = 7 * n.val + h.val)
    (A : Buf (Elt F) (((cfgM m).win 0).arr.view.loc (c : Thread nD τ)))
    (d : ((cfgM m).win 0).block.Idx → Elt F ((cfgM m).win 0).elt)
    (k : Fin 80) (r : Fin 56) (x : Fin 513) (hv : 56 * h.val + r.val < 385) :
    (((cfgM m).win 0).fill ((cfgM m).grid.coords t) d ((((cfgM m).win 0).blk t).view.read (Elt F) A) : S1x80x56x513.Idx → F .f32)
        (ix4 (0 : Fin 1) k r x)
      = (A : S8x80x385x513.Idx → F .f32) (ix4 n k ⟨56 * h.val + r.val, hv⟩ x) := by
  have hx : ∀ a, ((cfgM m).win 0).xsize ((cfgM m).grid.coords t) a
      = (clip0_0 (grid0.coords t) a).extent (S1x80x56x513.size a) := fun a => rfl
  have hi : ((cfgM m).win 0).index t = cc0_transform_0 (grid0.coords t) := rfl
  have hc0 : (grid0.coords t 0).val = n.val := gcoords0 t n h ht
  have hc1 : (grid0.coords t 1).val = h.val := gcoords1 t n h ht
  have hn := n.isLt
  -- the entry is one the transfer moves
  have hmv : ∀ a, ((ix4 (0 : Fin 1) k r x : S1x80x56x513.Idx) a).val < ((cfgM m).win 0).xsize ((cfgM m).grid.coords t) a := by
    intro a
    rw [hx a]
    unfold clip0_0
    rw [tr0_eq]
    match a with
    | ⟨0, _⟩ => exact lt_extent_of (show (0 : Nat) < 1 from Nat.zero_lt_one) (by show (grid0.coords t 0).val * 1 + 0 < 8; omega)
    | ⟨1, _⟩ => exact lt_extent_of k.isLt (by show 0 * 80 + k.val < 80; have := k.isLt; omega)
    | ⟨2, _⟩ => exact lt_extent_of r.isLt (by show (grid0.coords t 1).val * 56 + r.val < 385; omega)
    | ⟨3, _⟩ => exact lt_extent_of x.isLt (by show 0 * 513 + x.val < 513; have := x.isLt; omega)
  refine (fill_at ((cfgM m).win 0) ((cfgM m).grid.coords t) d _ (ix4 (0 : Fin 1) k r x) hmv).trans ?_
  -- the block is a rectangle of the whole array: its entry's place there, axis by axis
  show (A : S8x80x385x513.Idx → F .f32) _ = _
  congr 1
  funext a
  apply Fin.ext
  show ((cfgM m).win 0).index t a * S1x80x56x513.size a + 1 * ((ix4 (0 : Fin 1) k r x : S1x80x56x513.Idx) a).val = _
  rw [hi, tr0_eq]
  match a with
  | ⟨0, _⟩ => show (grid0.coords t 0).val * 1 + 1 * 0 = n.val; omega
  | ⟨1, _⟩ => show 0 * 80 + 1 * k.val = k.val; omega
  | ⟨2, _⟩ => show (grid0.coords t 1).val * 56 + 1 * r.val = 56 * h.val + r.val; omega
  | ⟨3, _⟩ => show 0 * 513 + 1 * x.val = x.val; omega

/-- Targets: entry `(0, r, x)` of the buffer fetched at point `7 n + h` is the array's entry `(n, 56 h + r, x)` when row
    `56 h + r` is inside the image, as for the scores with the class axis left out. -/
theorem fetched1_at (c : Dev nD) (t : Fin (cfgM m).N) (n : Fin 8) (h : Fin 7) (ht : t.val = 7 * n.val + h.val)
    (A : Buf (Elt F) (((cfgM m).win 1).arr.view.loc (c : Thread nD τ)))
    (d : ((cfgM m).win 1).block.Idx → Elt F ((cfgM m).win 1).elt)
    (r : Fin 56) (x : Fin 513) (hv : 56 * h.val + r.val < 385) :
    (((cfgM m).win 1).fill ((cfgM m).grid.coords t) d ((((cfgM m).win 1).blk t).view.read (Elt F) A) : S1x56x513.Idx → BitVec 32)
        (ix3 (0 : Fin 1) r x)
      = (A : S8x385x513.Idx → BitVec 32) (ix3 n ⟨56 * h.val + r.val, hv⟩ x) := by
  have hx : ∀ a, ((cfgM m).win 1).xsize ((cfgM m).grid.coords t) a
      = (clip0_1 (grid0.coords t) a).extent (S1x56x513.size a) := fun a => rfl
  have hi : ((cfgM m).win 1).index t = cc0_transform_1 (grid0.coords t) := rfl
  have hc0 : (grid0.coords t 0).val = n.val := gcoords0 t n h ht
  have hc1 : (grid0.coords t 1).val = h.val := gcoords1 t n h ht
  have hn := n.isLt
  -- the entry is one the transfer moves
  have hmv : ∀ a, ((ix3 (0 : Fin 1) r x : S1x56x513.Idx) a).val < ((cfgM m).win 1).xsize ((cfgM m).grid.coords t) a := by
    intro a
    rw [hx a]
    unfold clip0_1
    rw [tr1_eq]
    match a with
    | ⟨0, _⟩ => exact lt_extent_of (show (0 : Nat) < 1 from Nat.zero_lt_one) (by show (grid0.coords t 0).val * 1 + 0 < 8; omega)
    | ⟨1, _⟩ => exact lt_extent_of r.isLt (by show (grid0.coords t 1).val * 56 + r.val < 385; omega)
    | ⟨2, _⟩ => exact lt_extent_of x.isLt (by show 0 * 513 + x.val < 513; have := x.isLt; omega)
  refine (fill_at ((cfgM m).win 1) ((cfgM m).grid.coords t) d _ (ix3 (0 : Fin 1) r x) hmv).trans ?_
  -- the block is a rectangle of the whole array: its entry's place there, axis by axis
  show (A : S8x385x513.Idx → BitVec 32) _ = _
  congr 1
  funext a
  apply Fin.ext
  show ((cfgM m).win 1).index t a * S1x56x513.size a + 1 * ((ix3 (0 : Fin 1) r x : S1x56x513.Idx) a).val = _
  rw [hi, tr1_eq]
  match a with
  | ⟨0, _⟩ => show (grid0.coords t 0).val * 1 + 1 * 0 = n.val; omega
  | ⟨1, _⟩ => show (grid0.coords t 1).val * 56 + 1 * r.val = 56 * h.val + r.val; omega
  | ⟨2, _⟩ => show 0 * 513 + 1 * x.val = x.val; omega

end Cert.KernelIdeal.Hand

end
-- ==== Proof.KI.Tail.lean ====
/-
  The seven host operations after the region, read at the extended reals: from a result array whose block `n` holds
  one number `g n` at every entry, they take entry (n, 0, 0) of each block, sum the eight from zero, negate, and divide
  by the pixel count.
-/
import proofs.«405709_j67010079752779_3_alg».proof.Proof.Gen.KernelIdeal.Launch
import proofs.«405709_j67010079752779_3_alg».proof.Proof.Spec
import Idealize.ShloMosaic.Lib.StableHlo.Run
import Idealize.ShloMosaic.Lib.Pipeline.Value
import Idealize.ShloMosaic.Lib.ValueIdx
import Idealize.ShloMosaic.Lib.ValueIdxRank1
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem

/-- Entry `n` of the reshaped slice is entry (n, 0, 0) of the result array: the slice starts at the origin and the
    reshape [8, 1, 1] → [8] keeps the row-major position, which is `n` on both sides. -/
theorem slice_reshape_apply (x : S8x8x128.Idx → EReal) (n : Fin 8) :
    shapeCast S8 (extractStridedSlice S8x1x1 ![0, 0, 0] x slices_S8x8x128_S8x1x1_0_0_0) shapeCasts_S8x1x1_S8 (ix1 n)
      = x (ix3 n 0 0) := by
  rw [shapeCast_apply _ shapeCasts_S8x1x1_S8 (ix1 n) (ix3 n 0 0)
        (by rw [Shape.rowMajor_val_three, Shape.rowMajor_val_one]; simp),
      extractStridedSlice_apply _ _ slices_S8x8x128_S8x1x1_0_0_0 (ix3 n 0 0) (ix3 n 0 0)
        (by intro a; fin_cases a <;> simp)]

/-- The sum over the eight entries of the reshaped slice, re-indexed by the block number. -/
theorem sum_slice_reshape (x : S8x8x128.Idx → EReal) :
    ∑ i : S8.Idx, shapeCast S8 (extractStridedSlice S8x1x1 ![0, 0, 0] x slices_S8x8x128_S8x1x1_0_0_0) shapeCasts_S8x1x1_S8 i
      = ∑ n : Fin 8, x (ix3 n 0 0) := by
  rw [← Equiv.sum_comp (idxEquiv1 (n := 8)).symm]
  exact Finset.sum_congr rfl fun n _ => slice_reshape_apply x n

theorem tail_v6 (W : Valuation τ sig (Elt Ideal)) (g : Fin 8 → EReal)
    (hW : (W (Proc.devRef .tc main_v1) : S8x8x128.Idx → EReal) = fun j => g ⟨(j 0).val, (j 0).isLt⟩) :
    (StableHlo.after (hostOps1 (F := Ideal)) W (Proc.devRef .tc main_v6) : S_.Idx → EReal)
      = fun _ => Ideal.div (-(0 + ∑ n : Fin 8, g n)) Cert.Spec.cnt := by
  show StableHlo.after hostOps1 _ (Proc.devRef .tc main_v6) = _
  after_results
  funext j
  unfold Host.divf Host.negf Host.reduceAdd
  simp only [Ideal.hostDivf_def, Ideal.hostNegf_def, Ideal.negf_def, Ideal.hostReduceAdd_def]
  rw [Ideal.hostReduceAdd_total reducesTo_S8_S_d0 (fun b => b.elim0)]
  simp only [constant_apply, Ideal.ofBits_zero_f32]
  rw [hW]
  exact congrArg (fun s : EReal => Ideal.div (-(0 + s)) Cert.Spec.cnt) (sum_slice_reshape _)

end Cert.KernelIdeal.Hand

end
-- ==== Proof.KI.OutArray.lean ====
/-
  The result window: one (8,128) block per image, written back once, after the image's last tile.

  Grid point `t = 7 n + h` is tile `h` of image `n`. The result's block index is the image, so the pipeline writes the
  block back exactly at the points with `h = 6` (where the body's last conditional holds) and nowhere else; the eight
  blocks tile the result array. So if the body leaves at point `t` a block that holds one number `g n h` at every entry,
  the array ends holding `g n 6` throughout block `n`.
-/
import proofs.«405709_j67010079752779_3_alg».proof.Proof.KI.Kit
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ)

/-- The image and the tile of grid point `t`. -/
abbrev imgOf (t : ℕ) : Fin 8 := ⟨t / 7 % 8, Nat.mod_lt _ (by decide)⟩
abbrev tileOf (t : ℕ) : Fin 7 := ⟨t % 7, Nat.mod_lt _ (by decide)⟩

/-! ## The grid: 56 points, image-major -/

/-- Seven consecutive points share an image; the tile changes at every point. -/
private theorem stride0 : grid0.stride (0 : Fin 2) = 7 := by decide
private theorem stride1 : grid0.stride (1 : Fin 2) = 1 := by decide

theorem out_N : (cfgM m).N = 56 := N_0

/-- The first coordinate of point `t` is its image, -/
theorem out_coords0 (t : Fin (cfgM m).N) : (((cfgM m).grid.coords t) 0).val = t.val / 7 % 8 := by
  show t.val / grid0.stride (0 : Fin 2) % 8 = _
  rw [stride0]

/-- and the second its tile. -/
theorem out_coords1 (t : Fin (cfgM m).N) : (((cfgM m).grid.coords t) 1).val = t.val % 7 := by
  show t.val / grid0.stride (1 : Fin 2) % 7 = _
  rw [stride1, Nat.div_one]

/-! ## The body's two conditionals, as tests on the tile -/

/-- Over the seven tiles: "the tile equals 6", widened to a word and compared with zero, holds exactly at tile 6; -/
private theorem cond2_fin : ∀ j : Fin 7,
    (Scalar.cmpi .ne (Scalar.extui (Scalar.cmpi .eq (BitVec.ofNat 32 j.val) 6#32)) 0#32 = 1#1 ↔ j.val = 6) := by decide
/-- "the tile equals 0", likewise, exactly at tile 0. -/
private theorem reset_fin : ∀ j : Fin 7,
    (Scalar.cmpi .ne (Scalar.extui (Scalar.cmpi .eq (BitVec.ofNat 32 j.val) 0#32)) 0#32 = 1#1 ↔ j.val = 0) := by decide

/-- The last conditional holds exactly at an image's last tile. -/
theorem cond2_iff (t : Fin (cfgM m).N) : k0_cond2 ((cfgM m).grid.coords t) = 1#1 ↔ t.val % 7 = 6 :=
  (cond2_fin ((cfgM m).grid.coords t 1)).trans (by rw [out_coords1])

/-- The first conditional (the accumulator is cleared) holds exactly at an image's first tile. -/
theorem reset_iff (t : Fin (cfgM m).N) :
    Scalar.cmpi .ne (Scalar.extui (Scalar.cmpi .eq (BitVec.ofNat 32 ((cfgM m).grid.coords t 1).val) 0#32)) 0#32 = 1#1 ↔ t.val % 7 = 0 :=
  (reset_fin ((cfgM m).grid.coords t 1)).trans (by rw [out_coords1])

/-- The point's coordinates are its image and its tile. -/
theorem point_eq (t : Fin (cfgM m).N) : t.val = 7 * (imgOf t.val).val + (tileOf t.val).val := by
  have h : t.val < 56 := lt_of_lt_of_eq t.isLt (out_N m)
  show t.val = 7 * (t.val / 7 % 8) + t.val % 7
  omega

/-! ## Where the result's block is written back -/

/-- The write-back test of the result window reads the grid and the window's index map only, whatever the table holds: -/
private theorem flush2_eq (a : (pcfg0 (F := F)).Adm) (t : Fin grid0.N) :
    ((cfg0 a).win 2).flush t = Window.flushOf grid0 true cc0_transform_2 t := rfl

/-- the block index (the image) changes after point `t`, or `t` is the last point, exactly when `t` is a last tile
    (checked at each of the 56 points). -/
private theorem flushOf2 : ∀ t : Fin grid0.N, Window.flushOf grid0 true cc0_transform_2 t = decide (t.val % 7 = 6) := by
  decide +kernel

/-- The result's block is written back exactly at an image's last tile. -/
theorem out_flush_iff (t : Fin (cfgM m).N) : ((cfgM m).win 2).flush t = true ↔ t.val % 7 = 6 := by
  rw [flush2_eq (adm m) t, flushOf2 t, decide_eq_true_iff]

/-- Where the body's last conditional fails the result's block is not written back. -/
theorem noflush2 (t : Fin (cfgM m).N) (hc : ¬ k0_cond2 ((cfgM m).grid.coords t) = 1#1) : ((cfgM m).win 2).flush t = false := by
  rw [cond2_iff] at hc
  rw [← Bool.not_eq_true, out_flush_iff]
  exact hc

/-! ## The blocks: block `n` is the slab `j 0 = n` of the result array -/

/-- The result window's block index at point `t`: the image, then zeros (the index map ignores the table; its value is
    checked at each of the 56 points). -/
private theorem index2_eq (a : (pcfg0 (F := F)).Adm) (t : Fin grid0.N) :
    ((cfg0 a).win 2).index t = cc0_transform_2 (grid0.coords t) := rfl
private theorem tr2 : ∀ t : Fin grid0.N, cc0_transform_2 (grid0.coords t) = ![t.val / 7 % 8, 0, 0] := by decide +kernel
theorem out_index (t : Fin (cfgM m).N) : ((cfgM m).win 2).index t = ![t.val / 7 % 8, 0, 0] :=
  (index2_eq (adm m) t).trans (tr2 t)

/-- An index of the result array whose first coordinate is point `t`'s image lies in point `t`'s block: the block is
    the rectangle `[n, n + 1) × [0, 8) × [0, 128)`. -/
theorem out_mem_blk (t : Fin (cfgM m).N) (i : S8x8x128.Idx) (h : (i 0).val = t.val / 7 % 8) :
    i ∈ (((cfgM m).win 2).blk t).view.set := by
  have key : (((cfgM m).win 2).blk t).view.set
      = (Rect.unit (s := main_v1.ty.shape) (fun a => ((cfgM m).win 2).index t a * S1x8x128.size a) S1x8x128.size
          (fun a => Pipeline.Clip.inb (((cfgM m).win 2).hclip ((cfgM m).grid.coords t) a))).set :=
    View.set_slice_whole main_v1 _
  have hm : ∀ a : Fin 3, ((cfgM m).win 2).index t a * S1x8x128.size a ≤ (i a).val
      ∧ (i a).val < ((cfgM m).win 2).index t a * S1x8x128.size a + S1x8x128.size a := by
    rw [out_index]
    intro a
    match a with
    | ⟨0, _⟩ => show t.val / 7 % 8 * 1 ≤ (i 0).val ∧ (i 0).val < t.val / 7 % 8 * 1 + 1; omega
    | ⟨1, _⟩ => show 0 * 8 ≤ (i 1).val ∧ (i 1).val < 0 * 8 + 8; have h1 : (i 1).val < 8 := (i 1).isLt; omega
    | ⟨2, _⟩ => show 0 * 128 ≤ (i 2).val ∧ (i 2).val < 0 * 128 + 128; have h2 : (i 2).val < 128 := (i 2).isLt; omega
  rw [key]
  exact Rect.mem_set_unit.mpr hm

/-- Every index `i` of the result array is in a block that is written back: that of point `7 (i 0) + 6`, the last tile
    of image `i 0`. -/
theorem out_cover (i : S8x8x128.Idx) :
    ∃ t : Fin (cfgM m).N, ((cfgM m).win 2).flush t = true ∧ i ∈ (((cfgM m).win 2).blk t).view.set := by
  have h0 : (i 0).val < 8 := (i 0).isLt
  refine ⟨⟨7 * (i 0).val + 6, lt_of_lt_of_eq (by omega) (out_N m).symm⟩, (out_flush_iff m _).mpr ?_, out_mem_blk m _ i ?_⟩
  · show (7 * (i 0).val + 6) % 7 = 6; omega
  · show (i 0).val = (7 * (i 0).val + 6) / 7 % 8; omega

/-! ## The array after the run -/

/-- What the result array ends holding: throughout block `n`, image `n`'s number after its last tile. -/
abbrev outFinal (g : Fin 8 → ℕ → F .f32) : S8x8x128.Idx → F .f32 := fun j => g ⟨(j 0).val, (j 0).isLt⟩ 6

theorem outFinal_eq (g : Fin 8 → ℕ → F .f32) (j : S8x8x128.Idx) (n : Fin 8) (h : (j 0).val = n.val) : outFinal g j = g n 6 := by
  have e : (⟨(j 0).val, (j 0).isLt⟩ : Fin 8) = n := Fin.ext h
  show g ⟨(j 0).val, (j 0).isLt⟩ 6 = g n 6
  rw [e]

/-- If the body leaves at every point a block constant at `g (image) (tile)`, the result array ends holding `g n 6`
    throughout block `n`: each written-back block (a last tile's, `t % 7 = 6`) is the constant `g (image of t) 6`, which is
    that block of the stated contents because the block's entries all have first coordinate the image of `t`; and the
    written-back blocks cover the array. -/
theorem out_final (c : Dev nD) (dat : Dat τ (Elt F) Unit ℕ (UR sig nD τ) ℕ (cfgM m) c) (g : Fin 8 → ℕ → F .f32)
    (hafter : ∀ t : Fin (cfgM m).N, (dat.after 2 t : S1x8x128.Idx → F .f32) = fun _ => g (imgOf t.val) (t.val % 7)) :
    (dat.arrAt 2 (cfgM m).N : S8x8x128.Idx → F .f32) = fun (j : S8x8x128.Idx) => g ⟨(j 0).val, (j 0).isLt⟩ 6 := by
  refine dat.arrAt_eq_of_cover 2 (outFinal g) ?_ (out_cover m)
  intro t hf
  rw [out_flush_iff] at hf
  funext x
  have hx : (x (0 : Fin 3)).val < 1 := (x (0 : Fin 3)).isLt
  -- an entry of point `t`'s block sits in the array at first coordinate `image of t + 0`
  have he : (((((cfgM m).win 2).blk t).view.emb x) (0 : Fin 3)).val = (imgOf t.val).val := by
    show ((cfgM m).win 2).index t (0 : Fin 3) * 1 + 1 * (x (0 : Fin 3)).val = t.val / 7 % 8
    rw [out_index]
    show t.val / 7 % 8 * 1 + 1 * (x (0 : Fin 3)).val = t.val / 7 % 8
    omega
  refine (congrFun (hafter t) _).trans ?_
  rw [hf]
  exact (outFinal_eq g _ (imgOf t.val) he).symm

end Cert.KernelIdeal.Hand

end
-- ==== Proof.KI.ValueRun.lean ====
/-
  The kernel's result over the extended reals.

  Here the proof data name everything. After the point that handles tile `h` of image `n` the accumulator holds, at
  every entry, the image's partial sum `0 + tile 0 + … + tile h` of tile shares: the body clears it at the image's first
  tile and otherwise adds the tile's share to what the point before left — and the tile's share depends on the two
  fetched blocks only through their rows inside the image, where they hold the arrays' entries. At the image's last
  tile the result's block becomes the accumulator, so block `n` of the result array ends at the image's sum; the host
  operations after the region add the eight up from zero, negate, and divide by the pixel count.
-/
import proofs.«405709_j67010079752779_3_alg».proof.Proof.KI.FrameRun
import proofs.«405709_j67010079752779_3_alg».proof.Proof.KI.BodyValue
import proofs.«405709_j67010079752779_3_alg».proof.Proof.KI.TileValue
import proofs.«405709_j67010079752779_3_alg».proof.Proof.KI.BlockRead
import proofs.«405709_j67010079752779_3_alg».proof.Proof.KI.Tail
import proofs.«405709_j67010079752779_3_alg».proof.Proof.KI.OutArray
import Idealize.ShloMosaic.Lib.Pipeline.Value

noncomputable section

namespace Cert.KernelIdeal.Hand

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligationLoose)

local notation "𝕄" => MT nD τ sig Unit (Elt Ideal) ℕ (UR sig nD τ) ℕ

variable (m : (ℓ : Loc nD τ sig) → Buf (Elt Ideal) ℓ) (ρ : Dev nD → PrngReg)

/-! ## The arrays, the table, the partial sums -/

/-- The scores and the targets as the region finds them, and each image's largest target as the table holds it. -/
abbrev Xs (c : Dev nD) : Cert.Spec.Scores := V m c main_arg0
abbrev Ts (c : Dev nD) : Cert.Spec.Targets := V m c main_arg1
def tmW (n : Fin 8) : BitVec 32 := (tbl m 0 : S8.Idx → BitVec 32) (ix1 n)

/-- Image `n`'s tile shares added up from zero through tile `h`. -/
def part (c : Dev nD) (n : Fin 8) : ℕ → EReal
  | 0 => 0 + Cert.Spec.tileK (Xs m c) (Ts m c) (tmW m) n 0
  | h + 1 => part c n h + (if hh : h + 1 < 7 then Cert.Spec.tileK (Xs m c) (Ts m c) (tmW m) n ⟨h + 1, hh⟩ else 0)

/-- The accumulator after point `t`: the partial sum at every entry. -/
def accAt (c : Dev nD) (t : ℕ) : FVec Ideal S8x128 .f32 := fun _ => part m c (imgOf t) (t % 7)

/-- The two input windows' fetched blocks with the part past the image's end filled with zeros. -/
def in0 (c : Dev nD) (t : Fin (cfgM m).N) : S1x80x56x513.Idx → EReal :=
  ((cfgM m).win 0).fill ((cfgM m).grid.coords t) (fun _ => (0 : EReal))
    ((((cfgM m).win 0).blk t).view.read (Elt Ideal) (V m c (Pipeline.arrRef spec0 0)))
def in1 (c : Dev nD) (t : Fin (cfgM m).N) : S1x56x513.Idx → BitVec 32 :=
  ((cfgM m).win 1).fill ((cfgM m).grid.coords t) (fun _ => (0#32 : BitVec 32))
    ((((cfgM m).win 1).blk t).view.read (Elt Ideal) (V m c (Pipeline.arrRef spec0 1)))

/-- The invariant before point `t`: the table's half; the generator register at some state; the accumulator at some
    contents, which after an image's first tile are what the point before left. -/
def PhiV (c : Dev nD) (t : ℕ) : sProp 𝕄 :=
  iprop(iprop((∃ f, pt c Macc f ∗ ⌜t % 7 ≠ 0 → (f : S8x128.Idx → EReal) = accAt m c (t - 1)⌝) ∗ (∃ r, prngReg c r))
    ∗ Pipeline.ΦT pre0 (tbl m) c)

/-- The proof data on core `c`. -/
def dats (_ : Fin 1) (c : Dev nD) : Dat τ (Elt Ideal) Unit ℕ (UR sig nD τ) ℕ (cfgM m) c where
  A w := V m c (Pipeline.arrRef spec0 w)
  after w t := match w with
    | ⟨0, _⟩ => in0 m c t
    | ⟨1, _⟩ => in1 m c t
    | ⟨2, _⟩ => fun _ => part m c (imgOf t.val) (t.val % 7)
  Φ t := PhiV m c t.val
  q _ := fullShare
  owed _ := 0

/-! ## What the body finds in the input buffers -/

/-- The scores' buffer at point `t`: the fetched block, whatever `d` fills the part past the image's end. -/
theorem before0 (c : Dev nD) (t : Fin (cfgM m).N) (d) :
    (dats m 0 c).before 0 t d = ((cfgM m).win 0).fill ((cfgM m).grid.coords t) d
      ((((cfgM m).win 0).blk t).view.read (Elt Ideal) (V m c (Pipeline.arrRef spec0 0))) :=
  (dats m 0 c).before_in_eq_fetched 0 rfl (fun _ => rfl)
    (fun t t' h => funext fun a => by
      show Pipeline.Clip.of (cc0_transform_0 ((cfgM m).grid.coords t) a) _ _ = Pipeline.Clip.of (cc0_transform_0 ((cfgM m).grid.coords t') a) _ _
      rw [show cc0_transform_0 ((cfgM m).grid.coords t) = cc0_transform_0 ((cfgM m).grid.coords t') from h])
    (fun t => ((cfgM m).win 0).cut_fill _ _ _) t d

/-- The targets' buffer likewise. -/
theorem before1 (c : Dev nD) (t : Fin (cfgM m).N) (d) :
    (dats m 0 c).before 1 t d = ((cfgM m).win 1).fill ((cfgM m).grid.coords t) d
      ((((cfgM m).win 1).blk t).view.read (Elt Ideal) (V m c (Pipeline.arrRef spec0 1))) :=
  (dats m 0 c).before_in_eq_fetched 1 rfl (fun _ => rfl)
    (fun t t' h => funext fun a => by
      show Pipeline.Clip.of (cc0_transform_1 ((cfgM m).grid.coords t) a) _ _ = Pipeline.Clip.of (cc0_transform_1 ((cfgM m).grid.coords t') a) _ _
      rw [show cc0_transform_1 ((cfgM m).grid.coords t) = cc0_transform_1 ((cfgM m).grid.coords t') from h])
    (fun t => ((cfgM m).win 1).cut_fill _ _ _) t d

/-! ## One point's step on the accumulator -/

/-- A partial sum from the one before. -/
theorem part_succ (c : Dev nD) (n : Fin 8) (h : ℕ) (hh : h + 1 < 7) :
    part m c n (h + 1) = part m c n h + Cert.Spec.tileK (Xs m c) (Ts m c) (tmW m) n ⟨h + 1, hh⟩ := by
  rw [part, dif_pos hh]

/-- After point `t` the accumulator holds the partial sum, given that before it held the partial sum of the point
    before (needed only after an image's first tile: there the body clears it). -/
theorem acc_eq (c : Dev nD) (t : Fin (cfgM m).N) (d0 d1) (fs : S8x128.Idx → EReal)
    (hfs : t.val % 7 ≠ 0 → fs = accAt m c (t.val - 1)) :
    accStep (F := Ideal) ((cfgM m).grid.coords t) ((dats m 0 c).before 0 t d0) ((dats m 0 c).before 1 t d1)
        (tabWord c ((cfgM m).grid.coords t) (tbl m 0)) fs
      = accAt m c t.val := by
  have ht := point_eq m t
  have hi0 := coords0 m t (imgOf t.val) (tileOf t.val) ht
  have hi1 := coords1 m t (imgOf t.val) (tileOf t.val) ht
  have hw : tabWord c ((cfgM m).grid.coords t) (tbl m 0) = tmW m (imgOf t.val) := by
    unfold tabWord tmW
    exact congrArg (fun k : Fin 8 => (tbl m 0 : S8.Idx → BitVec 32) (ix1 k)) (Fin.ext hi0)
  rw [before0, before1, hw]
  refine (accStep_ideal (imgOf t.val) (tileOf t.val) ((cfgM m).grid.coords t) hi0 hi1 (Xs m c) (Ts m c) (tmW m) _ _
      (fun k r x hv => fetched0_at m c t (imgOf t.val) (tileOf t.val) ht (V m c (Pipeline.arrRef spec0 0)) d0 k r x hv)
      (fun r x hv => fetched1_at m c t (imgOf t.val) (tileOf t.val) ht (V m c (Pipeline.arrRef spec0 1)) d1 r x hv) fs).trans ?_
  funext j
  unfold accAt
  by_cases h0 : t.val % 7 = 0
  · rw [if_pos (show (tileOf t.val).val = 0 from h0), h0, part]
    exact congrArg (fun k : Fin 7 => (0 : EReal) + Cert.Spec.tileK (Xs m c) (Ts m c) (tmW m) (imgOf t.val) k) (Fin.ext h0)
  · rw [if_neg (show ¬ (tileOf t.val).val = 0 from h0), hfs h0]
    unfold accAt
    obtain ⟨h', hh'⟩ : ∃ h', t.val % 7 = h' + 1 := ⟨t.val % 7 - 1, by omega⟩
    have hlt : h' + 1 < 7 := by have := Nat.mod_lt t.val (show 0 < 7 by decide); omega
    have e1 : imgOf (t.val - 1) = imgOf t.val := Fin.ext (by show (t.val - 1) / 7 % 8 = t.val / 7 % 8; omega)
    have e2 : (t.val - 1) % 7 = h' := by omega
    rw [e1, e2, hh', part_succ m c _ h' hlt]
    exact congrArg (fun k : Fin 7 => part m c (imgOf t.val) h' + Cert.Spec.tileK (Xs m c) (Ts m c) (tmW m) (imgOf t.val) k) (Fin.ext hh')

/-! ## The body obligation -/

/-- Each window's current staging memref at point `t`, and its wholeness. -/
abbrev ms0 (t : Fin (cfgM m).N) : Memref sig .tc .vmem S1x80x56x513 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x56x513 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x8x128 .f32 := spec0_2.stage ((cfgM m).slots t 2)
abbrev hs2 (t : Fin (cfgM m).N) : (ms2 m t).IsWhole := hstage0_2 (((cfgM m).slots t 2).cast nbuf0_2)

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ (dats m 0 c).leaves 0 t ∗ (dats m 0 c).leaves 1 t ∗ (dats m 0 c).leaves 2 t)

/-- An input buffer the body only reads is handed back as the fetched block it was. -/
theorem keep0 (c : Dev nD) (t : Fin (cfgM m).N) (d) :
    ((cfgM m).win 0).fill ((cfgM m).grid.coords t) d (((cfgM m).win 0).cut ((cfgM m).grid.coords t) ((dats m 0 c).after 0 t))
      = (dats m 0 c).before 0 t d := by
  rw [before0]; exact congrArg _ (((cfgM m).win 0).cut_fill _ _ _)
theorem keep1 (c : Dev nD) (t : Fin (cfgM m).N) (d) :
    ((cfgM m).win 1).fill ((cfgM m).grid.coords t) d (((cfgM m).win 1).cut ((cfgM m).grid.coords t) ((dats m 0 c).after 1 t))
      = (dats m 0 c).before 1 t d := by
  rw [before1]; exact congrArg _ (((cfgM m).win 1).cut_fill _ _ _)

/-- The result's block of a constant accumulator is that constant. -/
theorem pay2_const (v : EReal) : k0_pay2 (F := Ideal) (fun _ => v) = fun _ => v := rfl

set_option maxHeartbeats 2000000 in
theorem sound_body (c : Dev nD) (t : Fin (cfgM m).N) :
    bodyPre m c t ⊢ wp Idealize.ShloMosaic.frame (wpE (defs₀ (F := Ideal)) Variants.none c none) Set.univ
      (defs₀ (F := Ideal) .tc (cfgM m).body ((cfgM m).bodyArgs t ((cfgM m).slots t))) (fun _ => bodyPost m c t) := by
  unfold bodyPre bodyPost
  rw [show (dats m 0 c).owesAt () t.succ = (dats m 0 c).owesAt () t.castSucc from rfl,
    show (dats m 0 c).Φ t.castSucc = PhiV m c t.val from rfl,
    show (dats m 0 c).Φ t.succ = PhiV m c (t.val + 1) from rfl,
    show (dats m 0 c).leaves 0 t = iprop(∃ d, owns (c : Thread nD τ) (ms0 m t) fullShare
      (((cfgM m).win 0).fill ((cfgM m).grid.coords t) d (((cfgM m).win 0).cut ((cfgM m).grid.coords t) ((dats m 0 c).after 0 t)))) from rfl,
    show (dats m 0 c).leaves 1 t = iprop(∃ d, owns (c : Thread nD τ) (ms1 m t) fullShare
      (((cfgM m).win 1).fill ((cfgM m).grid.coords t) d (((cfgM m).win 1).cut ((cfgM m).grid.coords t) ((dats m 0 c).after 1 t)))) from rfl]
  unfold PhiV; rw [PhiT0_eq]
  iintro ⟨⟨⟨⟨%fs, Hs, %hfs⟩, Hg⟩, Ht⟩, Ho, ⟨%d0, H0⟩, ⟨%d1, H1⟩, ⟨%d2, H2⟩⟩
  have hacc := bodyRun_acc c ((cfgM m).grid.coords t) (ms0 m t) (hs0 m t) (ms1 m t) (hs1 m t) (ms2 m t) (hs2 m t) (tbl m 0)
    ((dats m 0 c).before 0 t d0) ((dats m 0 c).before 1 t d1) ((dats m 0 c).before 2 t d2) fs
  have hout := bodyRun_out c ((cfgM m).grid.coords t) (ms0 m t) (hs0 m t) (ms1 m t) (hs1 m t) (ms2 m t) (hs2 m t) (tbl m 0)
    ((dats m 0 c).before 0 t d0) ((dats m 0 c).before 1 t d1) ((dats m 0 c).before 2 t d2) fs
  rw [acc_eq m c t d0 d1 fs hfs] at hacc hout
  iapply ((bodyRun c ((cfgM m).grid.coords t) (ms0 m t) (hs0 m t) (ms1 m t) (hs1 m t) (ms2 m t) (hs2 m t) (tbl m 0)
    ((dats m 0 c).before 0 t d0) ((dats m 0 c).before 1 t d1) ((dats m 0 c).before 2 t d2) fs).2 Set.univ _)
  isplitl [Ht]; · iexact Ht
  isplitl [H0]; · iexact H0
  isplitl [H1]; · iexact H1
  isplitl [H2]; · iexact H2
  isplitl [Hs]; · iexact Hs
  iintro ⟨Ht, H0, H1, H2, Hs⟩
  isplitl [Hs Hg Ht]
  · isplitr [Ht]
    · isplitl [Hs]
      · iexists _; isplitl [Hs]; · iexact Hs
        ipureintro; intro _; exact hacc
      iexact Hg
    iexact Ht
  isplitl [Ho]; · iexact Ho
  isplitl [H0]
  · iexists d0
    iapply (Entails.of_eq (congrArg (fun X => (owns (c : Thread nD τ) (ms0 m t) fullShare X : sProp 𝕄)) (keep0 m c t d0).symm))
    iexact H0
  isplitl [H1]
  · iexists d1
    iapply (Entails.of_eq (congrArg (fun X => (owns (c : Thread nD τ) (ms1 m t) fullShare X : sProp 𝕄)) (keep1 m c t d1).symm))
    iexact H1
  by_cases hc : k0_cond2 ((cfgM m).grid.coords t) = 1#1
  · have hidle : (cfgM m).idle 2 ((cfgM m).grid.coords t) = false := by
      show (!(k0_cond2 ((cfgM m).grid.coords t) == 1#1)) = false
      rw [hc]; rfl
    rw [show (dats m 0 c).leaves 2 t = owns (c : Thread nD τ) (ms2 m t) fullShare ((dats m 0 c).after 2 t) from by
      unfold Dat.leaves; rw [hidle]; rfl]
    unfold owns
    iexists _; isplitr; swap; (· iexact H2)
    ipureintro
    exact hout.trans ((if_pos hc).trans (pay2_const _))
  · have hidle : (cfgM m).idle 2 ((cfgM m).grid.coords t) = true := by
      show (!(k0_cond2 ((cfgM m).grid.coords t) == 1#1)) = true
      have : k0_cond2 ((cfgM m).grid.coords t) = 0#1 := eq_zero_of_ne_one hc
      rw [this]; rfl
    rw [Dat.leaves_idle (dats m 0 c) 2 t hidle (noflush2 m t hc)]
    iexists d2
    unfold owns
    iexists _; isplitr; swap; (· iexact H2)
    ipureintro
    exact hout.trans (if_neg hc)

/-- The library's body obligation, at every point. -/
theorem value_body (c : Dev nD) : BodyObligationLoose (dats m 0 c) (defs₀ (F := Ideal)) Variants.none () Set.univ := fun t => by
  rw [bigSep_W0, bigSep_W0]
  exact sound_body m c t

/-! ## The run -/

/-- What the launch hands the region is the invariant before the first point: nothing is asked of the accumulator there. -/
theorem hinV (c : Dev nD) : iprop(Pipeline.ΦA spec0 c ∗ Pipeline.ΦT pre0 (tbl m) c) ⊢ (dats m 0 c).Φ 0 := by
  rw [show (dats m 0 c).Φ 0 = PhiV m c 0 from rfl, PhiA0_eq]; unfold PhiV
  iintro ⟨⟨⟨%f, Hs⟩, Hg⟩, Ht⟩
  isplitr [Ht]
  · isplitl [Hs]
    · iexists f; isplitl [Hs]; · iexact Hs
      ipureintro; intro h; exact absurd rfl h
    iexact Hg
  iexact Ht

/-- After the last point the invariant gives the class's back: what the accumulator holds is forgotten. -/
theorem houtV (c : Dev nD) : (dats m 0 c).Φ (Fin.last (cfgM m).N) ⊢ Pipeline.ΦA spec0 c := by
  rw [show (dats m 0 c).Φ (Fin.last (cfgM m).N) = PhiV m c (cfgM m).N from rfl, PhiA0_eq]; unfold PhiV
  iintro ⟨⟨⟨%f, Hs, -⟩, Hg⟩, -⟩
  isplitl [Hs]
  · iexists f; iexact Hs
  iexact Hg

set_option backward.isDefEq.respectTransparency.types false in
/-- From any memory with zero counters every weakly fair execution of @main terminates; every array of the region ends at
    what the proof data compute, every other buffer as the seven later operations leave it. -/
theorem run_value : θ_run defs (onTc (τ := τ) (main (F := Ideal))) (s₀ m ρ)
    (Pipeline.FramePost (Pipeline.pin pcfgs fun _ => adm m) (dats m) 0
      (Pipeline.afterTail pcfgs (fun _ => adm m) (dats m) 0 (V0 m) [hostOps1])) :=
  Pipeline.θ_run_frameP_around_track pcfgs (fun _ => adm m) (dats m) (0 : Fin 1) launch0 defs₀ Variants.none m ρ main
    (hbody := value_body m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hpf := fun c k => V_pre m c k) (hin := hinV m) (hout := houtV m)

/-! ## The result -/

/-- An image's seven tile shares added up from zero: the last partial sum. -/
theorem part_six (c : Dev nD) (n : Fin 8) : part m c n 6 = Cert.Spec.imgK (Xs m c) (Ts m c) (tmW m) n := by
  unfold Cert.Spec.imgK
  rw [part_succ m c n 5 (by decide), part_succ m c n 4 (by decide), part_succ m c n 3 (by decide),
    part_succ m c n 2 (by decide), part_succ m c n 1 (by decide), part_succ m c n 0 (by decide), part]
  rfl

/-- THE KERNEL'S RESULT: the program runs to its end, its result is the specification's kernel formula of the scores,
    the targets and the images' largest targets as the region finds them, and the two arguments end as they were. -/
theorem value : θ_run defs (onTc (τ := τ) (main (F := Ideal))) ⟨m, fun _ => 0, ρ⟩ (fun r => ∀ c : Dev nD,
      (r.2.mem ((c.tc : Thread nD τ).loc main_v6) : S_.Idx → EReal)
          = (fun _ => Cert.Spec.kernelVal (Xs m c) (Ts m c) (tmW m))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    refine ⟨?_, ((h c).1 0).trans (((dats m 0 c).arrAt_in 0 rfl _).trans (V_main_arg0 m c)),
      ((h c).1 1).trans (((dats m 0 c).arrAt_in 1 rfl _).trans (V_main_arg1 m c))⟩
    have h6 := (h c).2 main_v6 (show main_v6 ∈ Pipeline.restRefs sig spec0 from by decide)
    rw [h6]
    unfold Pipeline.afterTail
    rw [show ([hostOps1] : List (List (HloOp τ sig (Elt Ideal)))).flatten = hostOps1 from by
      simp only [List.flatten_cons, List.flatten_nil, List.append_nil]]
    refine (tail_v6 _ (fun n => part m c n 6) ?_).trans ?_
    · refine (Pipeline.withArrays_arr (Pipeline.pin pcfgs (fun _ => adm m) 0).spec (launch0 (F := Ideal)).win.arr_inj c (V0 m c) _ (2 : Fin 3)).trans ?_
      exact out_final m c (dats m 0 c) (fun n h => part m c n h) (fun t => rfl)
    · funext _
      unfold Cert.Spec.kernelVal
      simp only [part_six]) (run_value m ρ)

end Cert.KernelIdeal.Hand

end
-- ==== Proof.RefValue.lean ====
/-
  The reference's result is the specification's reference formula.

  The reference program is read one operation at a time at an index. The only operation that is not a
  pointwise one, a layout one or a sum is the scatter that adds the extra bit to class zero: its definition is a
  left fold over all the update's elements, and read at one index only the updates landing on that index act.
  With the scatter index zero, update element (n, y, x) lands on (n, y, x, 0), so exactly one update lands on
  each element of class zero and none on the other classes.
-/
import proofs.«405709_j67010079752779_3_alg».proof.Proof.Gen.ReferenceIdeal.Read
import proofs.«405709_j67010079752779_3_alg».proof.Proof.Spec

noncomputable section

namespace Cert.RefValue

open Cert.ReferenceIdeal Cert.ReferenceIdeal.Gen
open Idealize.ShloMosaic Idealize.ShloMosaic.ValueIdx

/-- The scatter's fold, read at one index: only the updates landing on that index act on it. -/
theorem scatter_apply_fold {α : Type} {s si u : Shape} {w : Nat} (d : ScatterDims s si u) (f : α → α → α)
    (x : s.Idx → α) (idx : IVec si w) (upd : u.Idx → α) (i : s.Idx) :
    Host.scatter d f x idx upd i
      = (List.finRange u.numel).foldl
          (fun a n => if d.resultIdx? (u.rowMajor.symm n) idx = some i then f a (upd (u.rowMajor.symm n)) else a) (x i) := by
  unfold Host.scatter
  generalize List.finRange u.numel = l
  induction l generalizing x with
  | nil => rfl
  | cons n l ih =>
    rw [List.foldl_cons, List.foldl_cons, ih]
    congr 1
    cases h : d.resultIdx? (u.rowMajor.symm n) idx with
    | none => simp
    | some i0 =>
      by_cases hi : i = i0
      · subst hi; simp
      · have : ¬ i0 = i := fun e => hi e.symm
        simp [hi, this]

/-- A fold that acts only at the elements satisfying a predicate, none of which is in the list. -/
theorem foldl_none {κ α : Type} (p : κ → Prop) [DecidablePred p] (g : α → κ → α) (l : List κ) (a : α)
    (h : ∀ n ∈ l, ¬ p n) : l.foldl (fun a n => if p n then g a n else a) a = a := by
  induction l generalizing a with
  | nil => rfl
  | cons n l ih =>
    rw [List.foldl_cons, if_neg (h n (List.mem_cons_self ..))]
    exact ih a fun m hm => h m (List.mem_cons_of_mem _ hm)

/-- The same with exactly one such element in a list without repeats. -/
theorem foldl_one {κ α : Type} (p : κ → Prop) [DecidablePred p] (g : α → κ → α) (l : List κ) (a : α) (n0 : κ)
    (hl : l.Nodup) (h0 : n0 ∈ l) (h : ∀ n ∈ l, p n ↔ n = n0) :
    l.foldl (fun a n => if p n then g a n else a) a = g a n0 := by
  induction l generalizing a with
  | nil => cases h0
  | cons n l ih =>
    rw [List.foldl_cons]
    rw [List.nodup_cons] at hl
    by_cases hn : n = n0
    · subst hn
      rw [if_pos ((h n (List.mem_cons_self ..)).2 rfl)]
      refine foldl_none p g l _ fun m hm hp => ?_
      have := (h m (List.mem_cons_of_mem _ hm)).1 hp
      exact hl.1 (this ▸ hm)
    · rw [if_neg fun hp => hn ((h n (List.mem_cons_self ..)).1 hp)]
      have h0' : n0 ∈ l := by
        rcases List.mem_cons.1 h0 with e | e
        · exact absurd e.symm hn
        · exact e
      exact ih a hl.2 h0' fun m hm => h m (List.mem_cons_of_mem _ hm)

/-- The dimension numbers of the one scatter: the update's three axes go to the operand's first three, the
    operand's last axis is inserted and is the one the (single) scatter index names. -/
abbrev sd : ScatterDims S8x385x513x80 S1 S8x385x513 := scatter_S8x385x513x80_S1_S8x385x513_012_3_3_0

theorem sd_start (j : S8x385x513.Idx) (idx : IVec S1 32) (hidx : ∀ k, idx k = 0#32) (a : Fin 4) :
    sd.start j idx a = 0 := by
  unfold ScatterDims.start
  split
  · rw [hidx]; rfl
  · rfl

/-- With the scatter index zero, update element (n, y, x) lands on operand element (n, y, x, 0). -/
theorem sd_resultIdx (n : Fin 8) (y : Fin 385) (x : Fin 513) (idx : IVec S1 32) (hidx : ∀ k, idx k = 0#32) :
    sd.resultIdx? (ix3 n y x) idx = some (ix4 n y x (0 : Fin 80)) := by
  unfold ScatterDims.resultIdx?
  have h0 := n.isLt
  have h1 := y.isLt
  have h2 := x.isLt
  have h : ∀ a : Fin 4, 0 ≤ sd.start (ix3 n y x) idx a + sd.window (ix3 n y x) a
      ∧ sd.start (ix3 n y x) idx a + (sd.window (ix3 n y x) a : Int) < (S8x385x513x80.size a : Int) := by
    intro a
    rw [sd_start _ idx hidx a]
    match a with
    | ⟨0, _⟩ => show (0 : Int) ≤ 0 + (n.val : Int) ∧ (0 : Int) + (n.val : Int) < ((8 : Nat) : Int); omega
    | ⟨1, _⟩ => show (0 : Int) ≤ 0 + (y.val : Int) ∧ (0 : Int) + (y.val : Int) < ((385 : Nat) : Int); omega
    | ⟨2, _⟩ => show (0 : Int) ≤ 0 + (x.val : Int) ∧ (0 : Int) + (x.val : Int) < ((513 : Nat) : Int); omega
    | ⟨3, _⟩ => show (0 : Int) ≤ 0 + ((0 : Nat) : Int) ∧ (0 : Int) + ((0 : Nat) : Int) < ((80 : Nat) : Int); omega
  rw [dif_pos h]
  congr 1
  funext a
  apply Fin.ext
  show (sd.start (ix3 n y x) idx a + (sd.window (ix3 n y x) a : Int)).toNat = _
  rw [sd_start _ idx hidx a]
  match a with
  | ⟨0, _⟩ => show ((0 : Int) + (n.val : Int)).toNat = n.val; omega
  | ⟨1, _⟩ => show ((0 : Int) + (y.val : Int)).toNat = y.val; omega
  | ⟨2, _⟩ => show ((0 : Int) + (x.val : Int)).toNat = x.val; omega
  | ⟨3, _⟩ => show ((0 : Int) + ((0 : Nat) : Int)).toNat = 0; omega

/-- Every index of the update's shape is a triple. -/
theorem exists_ix3 (j : S8x385x513.Idx) : ∃ (a : Fin 8) (b : Fin 385) (c : Fin 513), j = ix3 a b c :=
  ⟨j 0, j 1, j 2, eq_ix3 (n0 := 8) (n1 := 385) (n2 := 513) j⟩

/-- The scatter read at an index: the update is added on the last axis's first position and nowhere else. -/
theorem scatter_at {α : Type} (f : α → α → α) (base : S8x385x513x80.Idx → α) (idx : IVec S1 32) (hidx : ∀ k, idx k = 0#32)
    (upd : S8x385x513.Idx → α) (n : Fin 8) (y : Fin 385) (x : Fin 513) (k : Fin 80) :
    Host.scatter sd f base idx upd (ix4 n y x k)
      = if k = 0 then f (base (ix4 n y x k)) (upd (ix3 n y x)) else base (ix4 n y x k) := by
  rw [scatter_apply_fold]
  by_cases hk : k = 0
  · rw [if_pos hk]
    rw [foldl_one (fun m => sd.resultIdx? (S8x385x513.rowMajor.symm m) idx = some (ix4 n y x k))
      (fun a m => f a (upd (S8x385x513.rowMajor.symm m))) _ _ (S8x385x513.rowMajor (ix3 n y x))
      (List.nodup_finRange _) (List.mem_finRange _)]
    · rw [Equiv.symm_apply_apply]
    · intro m _
      rw [← Equiv.symm_apply_eq]
      obtain ⟨a, b, c, hj⟩ := exists_ix3 (S8x385x513.rowMajor.symm m)
      rw [hj, sd_resultIdx _ _ _ idx hidx]
      constructor
      · intro e
        have e' := Option.some.inj e
        have e0 : a = n := congrFun e' 0
        have e1 : b = y := congrFun e' 1
        have e2 : c = x := congrFun e' 2
        rw [e0, e1, e2]
      · intro e
        have e0 : a = n := congrFun e 0
        have e1 : b = y := congrFun e 1
        have e2 : c = x := congrFun e 2
        rw [e0, e1, e2, hk]
  · rw [if_neg hk]
    refine foldl_none _ _ _ _ fun m _ hp => hk ?_
    obtain ⟨a, b, c, hj⟩ := exists_ix3 (S8x385x513.rowMajor.symm m)
    rw [hj, sd_resultIdx _ _ _ idx hidx] at hp
    have e3 : (0 : Fin 80) = k := congrFun (Option.some.inj hp) 3
    exact e3.symm

open Cert.ReferenceIdeal.Read Cert.Spec

/-- Each image's largest target, as the specification names it. -/
abbrev tm (x1 : (⟨S8x385x513, .i32⟩ : BufTy).Contents (Elt Ideal)) : Fin 8 → BitVec 32 :=
  tmOf x1 reducesTo_S8x385x513_S8_d1_2 h_S_

/-- A bit read as an unsigned number is zero or one. -/
theorem uitofp_ind (b : BitVec 1) : FloatOps.uitofp (F := Ideal) .f32 b = ind b := by
  show ((b.toNat : ℝ) : EReal) = ind b
  unfold ind
  by_cases h : b = 1#1
  · subst h; rw [if_pos rfl]; simp
  · rw [if_neg h, eq_zero_of_ne_one h]; simp

/-- The maximum-reduction at image n is the specification's largest target. -/
theorem v8_at (x1 : (⟨S8x385x513, .i32⟩ : BufTy).Contents (Elt Ideal)) (n : Fin 8) :
    val_main_v8 (F := Ideal) x1 (ix1 n) = tm x1 n := rfl

/-- The transposed scores at (n, y, x, k) are the scores at (n, k, y, x). -/
theorem v0_at (x0 : (⟨S8x80x385x513, .f32⟩ : BufTy).Contents (Elt Ideal)) (n : Fin 8) (y : Fin 385) (x : Fin 513) (k : Fin 80) :
    val_main_v0 (F := Ideal) x0 (ix4 n y x k) = x0 (ix4 n k y x) := by
  rw [val_main_v0_apply]
  congr 1
  funext a
  match a with
  | ⟨0, _⟩ => rfl
  | ⟨1, _⟩ => rfl
  | ⟨2, _⟩ => rfl
  | ⟨3, _⟩ => rfl

/-- The class-at-most-target bit, as a number. -/
theorem v7_at (x1 : (⟨S8x385x513, .i32⟩ : BufTy).Contents (Elt Ideal)) (n : Fin 8) (y : Fin 385) (x : Fin 513) (k : Fin 80) :
    val_main_v7 (F := Ideal) x1 (ix4 n y x k) = ind (leB k (x1 (ix3 n y x))) := by
  rw [val_main_v7_apply, val_main_v6_apply, val_main_v4_apply, val_main_v3_apply, val_main_v1_apply, val_main_v5_apply,
    val_main_v2_apply, uitofp_ind]
  have hi : idx_main_v2 (idx_main_v5 (ix4 n y x k)) = ix3 n y x := by
    funext a
    match a with
    | ⟨0, _⟩ => rfl
    | ⟨1, _⟩ => rfl
    | ⟨2, _⟩ => rfl
  rw [hi]
  rfl

/-- The target-is-largest-less-one bit, as a number. -/
theorem v14_at (x1 : (⟨S8x385x513, .i32⟩ : BufTy).Contents (Elt Ideal)) (n : Fin 8) (y : Fin 385) (x : Fin 513) :
    val_main_v14 (F := Ideal) x1 (ix3 n y x) = ind (exB (x1 (ix3 n y x)) (tm x1 n)) := by
  rw [val_main_v14_apply, val_main_v13_apply, val_main_v12_apply, val_main_v11_apply, val_main_v9_apply, val_main_v10_apply,
    val_main_c_0_apply, uitofp_ind]
  have hi : idx_main_v9 (idx_main_v12 (ix3 n y x)) = ix1 n := by
    funext a
    match a with
    | ⟨0, _⟩ => rfl
  rw [hi, v8_at]
  rfl

/-- The scatter's index is zero. -/
theorem v15_zero (k : S1.Idx) : val_main_v15 (F := Ideal) k = 0#32 := by
  rw [val_main_v15_apply, val_main_c_1_apply]

/-- The weights: class zero gets the extra bit added, the other classes keep theirs. -/
theorem v16_at (x1 : (⟨S8x385x513, .i32⟩ : BufTy).Contents (Elt Ideal)) (n : Fin 8) (y : Fin 385) (x : Fin 513) (k : Fin 80) :
    val_main_v16 (F := Ideal) x1 (ix4 n y x k) = wR k (x1 (ix3 n y x)) (tm x1 n) := by
  unfold val_main_v16
  rw [scatter_at _ _ _ v15_zero, v7_at, v14_at]
  unfold wR
  by_cases hk : k = 0
  · subst hk; rw [if_pos rfl, if_pos rfl]; rfl
  · rw [if_neg hk, if_neg hk]

/-- One class's term at one pixel. -/
theorem v29_at (x0 : (⟨S8x80x385x513, .f32⟩ : BufTy).Contents (Elt Ideal)) (x1 : (⟨S8x385x513, .i32⟩ : BufTy).Contents (Elt Ideal))
    (n : Fin 8) (y : Fin 385) (x : Fin 513) (k : Fin 80) :
    val_main_v29 (F := Ideal) x0 x1 (ix4 n y x k) = llR x0 x1 (tm x1) n k y x := by
  rw [val_main_v29_apply, val_main_v20_apply, val_main_v28_apply, val_main_v19_apply, val_main_v25_apply, val_main_v18_apply,
    val_main_v24_apply, val_main_v22_apply, val_main_v27_apply, val_main_v17_apply, val_main_v21_apply, val_main_v23_apply,
    val_main_v26_apply, val_main_cst_apply, val_main_cst_2_apply, val_main_cst_3_apply, val_main_cst_4_apply, v0_at, v16_at]
  rfl

/-- One pixel's sum over the classes, from zero. -/
theorem v30_at (x0 : (⟨S8x80x385x513, .f32⟩ : BufTy).Contents (Elt Ideal)) (x1 : (⟨S8x385x513, .i32⟩ : BufTy).Contents (Elt Ideal))
    (n : Fin 8) (y : Fin 385) (x : Fin 513) :
    val_main_v30 (F := Ideal) x0 x1 (ix3 n y x) = 0 + ∑ k : Fin 80, llR x0 x1 (tm x1) n k y x := by
  rw [val_main_v30_apply, val_main_cst_5_apply, Ideal.ofBits_def, Ideal.ofBits_zero_f32]
  refine congrArg (0 + ·) (Finset.sum_congr rfl fun k _ => ?_)
  have hi : idx_main_v30 (ix3 n y x) k = ix4 n y x k := by
    funext a
    match a with
    | ⟨0, _⟩ => rfl
    | ⟨1, _⟩ => rfl
    | ⟨2, _⟩ => rfl
    | ⟨3, _⟩ => rfl
  rw [hi, v29_at]

/-- One pixel's share: its sum over eighty. -/
theorem v32_at (x0 : (⟨S8x80x385x513, .f32⟩ : BufTy).Contents (Elt Ideal)) (x1 : (⟨S8x385x513, .i32⟩ : BufTy).Contents (Elt Ideal))
    (j : S8x385x513.Idx) :
    val_main_v32 (F := Ideal) x0 x1 j = Ideal.div (0 + ∑ k : Fin 80, llR x0 x1 (tm x1) (j 0) k (j 1) (j 2)) k80 := by
  obtain ⟨n, y, x, rfl⟩ := exists_ix3 j
  rw [val_main_v32_apply, val_main_v31_apply, val_main_cst_6_apply, v30_at]
  rfl

theorem ref_is_spec (x0 : (⟨S8x80x385x513, .f32⟩ : BufTy).Contents (Elt Ideal)) (x1 : (⟨S8x385x513, .i32⟩ : BufTy).Contents (Elt Ideal)) :
    Cert.ReferenceIdeal.Read.val_main_v35 (F := Ideal) x0 x1
      = fun _ => Cert.Spec.refVal x0 x1 (Cert.Spec.tmOf x1 reducesTo_S8x385x513_S8_d1_2 h_S_) := by
  funext i
  rw [val_main_v35_apply, val_main_v34_apply, val_main_v33_apply, val_main_cst_7_apply, val_main_cst_8_apply,
    Ideal.ofBits_def, Ideal.ofBits_zero_f32]
  simp only [v32_at]
  rfl

end Cert.RefValue

end
-- ==== Proof.Algebra.lean ====
/-
  The two formulas agree where every score is a real number with both logarithms' arguments positive.

  The road: the four literals are the reals 1, 80, 1580040 and some real ε; at each pixel the kernel's value is the
  sum over the classes of the reference's terms (the correction `log (a₀ / b₀)` at the pixels whose target is the
  largest less one is the difference `log a₀ − log b₀`, which turns class 0's term into the reference's); a division by
  a positive real is a product with its reciprocal and distributes over every finite sum of extended reals; the
  seven tiles of 56 rows cover the 385 rows once, the rows past the last counting zero; and a sign leaves a product.
-/
import proofs.«405709_j67010079752779_3_alg».proof.Proof.Spec
import Mathlib.Algebra.BigOperators.Fin
import Mathlib.Analysis.SpecialFunctions.Log.Basic

noncomputable section

namespace Cert.Spec

open Idealize.ShloMosaic Idealize.ShloMosaic.ValueIdx

/-! ## The literals -/

/-- The word `0x3F800000` is one. -/
theorem one_eq : one = 1 := by
  simp [one, Ideal.ofBits, Ideal.ieee, -EReal.coe_mul] <;> norm_num

/-- The word `0x42A00000` is eighty. -/
theorem k80_eq : k80 = ((80 : ℝ) : EReal) := by
  simp [k80, Ideal.ofBits, Ideal.ieee, -EReal.coe_mul] <;> norm_num

/-- The word `0x49C0E040` is the pixel count `8 · 385 · 513 = 1580040`. -/
theorem cnt_eq : cnt = ((1580040 : ℝ) : EReal) := by
  simp [cnt, Ideal.ofBits, Ideal.ieee, -EReal.coe_mul] <;> norm_num

/-- ε is a real number. -/
theorem eps_real : ∃ e : ℝ, eps = (e : EReal) := by
  simp [eps, Ideal.ofBits, Ideal.ieee, -EReal.coe_mul]

/-! ## Division by a positive real over a finite sum -/

/-- A product with a nonnegative finite factor distributes over a finite sum of extended reals. -/
theorem sum_mul_of_nonneg {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The reciprocal of eighty, as an extended real: nonnegative and finite. -/
def r80 : EReal := ((1 / 80 : ℝ) : EReal)

theorem r80_nonneg : 0 ≤ r80 := by
  unfold r80; exact_mod_cast (by norm_num : (0 : ℝ) ≤ 1 / 80)

theorem r80_ne_top : r80 ≠ ⊤ := EReal.coe_ne_top _

/-- Division by eighty is the product with its reciprocal. -/
theorem div_k80 (x : EReal) : Ideal.div x k80 = x * r80 := by
  rw [k80_eq, Ideal.div_coe (by norm_num)]; rfl

/-- Division by the pixel count is the product with its reciprocal. -/
theorem div_cnt (x : EReal) : Ideal.div x cnt = x * ((1 / 1580040 : ℝ) : EReal) := by
  rw [cnt_eq, Ideal.div_coe (by norm_num)]

/-! ## Regrouping the sums -/

/-- Seven tiles of 56 rows cover the 385 rows once: a sum over the tiles and their rows, the rows past the last
    counting zero, is the sum over the rows (`392 = 7 · 56 = 385 + 7`). -/
theorem sum_tiles {M : Type*} [AddCommMonoid M] (G : Fin 385 → M) :
    ∑ h : Fin 7, ∑ r : Fin 56, (if hv : 56 * h.val + r.val < 385 then G ⟨56 * h.val + r.val, hv⟩ else 0)
      = ∑ y : Fin 385, G y := by
  let G' : Fin (7 * 56) → M := fun j => if hv : j.val < 385 then G ⟨j.val, hv⟩ else 0
  have hL : ∑ h : Fin 7, ∑ r : Fin 56, (if hv : 56 * h.val + r.val < 385 then G ⟨56 * h.val + r.val, hv⟩ else 0)
      = ∑ j : Fin (7 * 56), G' j := by
    rw [← Equiv.sum_comp (finProdFinEquiv (m := 7) (n := 56)) G', Fintype.sum_prod_type]
    refine Finset.sum_congr rfl fun h _ => Finset.sum_congr rfl fun r _ => ?_
    have e : (finProdFinEquiv (m := 7) (n := 56) (h, r)).val = 56 * h.val + r.val := by
      show r.val + 56 * h.val = _; omega
    by_cases hv : 56 * h.val + r.val < 385
    · have hv' : (finProdFinEquiv (m := 7) (n := 56) (h, r)).val < 385 := by rw [e]; exact hv
      rw [dif_pos hv]; show _ = dite _ _ _; rw [dif_pos hv']
      exact congrArg G (Fin.ext e.symm)
    · have hv' : ¬ (finProdFinEquiv (m := 7) (n := 56) (h, r)).val < 385 := by rw [e]; exact hv
      rw [dif_neg hv]; show _ = dite _ _ _; rw [dif_neg hv']
  have hR : ∑ j : Fin (385 + 7), G' j = ∑ y : Fin 385, G y := by
    rw [Fin.sum_univ_add]
    have h1 : ∀ y : Fin 385, G' (Fin.castAdd 7 y) = G y := fun y => by
      show dite _ _ _ = _; rw [dif_pos (show (Fin.castAdd 7 y).val < 385 from y.isLt)]; rfl
    have h2 : ∀ z : Fin 7, G' (Fin.natAdd 385 z) = 0 := fun z => by
      show dite _ _ _ = _; rw [dif_neg (show ¬ (Fin.natAdd 385 z).val < 385 by simp)]
    simp only [h1, h2, Finset.sum_const_zero, add_zero]
  rw [hL]; exact hR

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## One pixel -/

theorem ind_of_eq {b : BitVec 1} (h : b = 1#1) : ind b = 1 := if_pos h
theorem ind_of_ne {b : BitVec 1} (h : ¬ b = 1#1) : ind b = 0 := if_neg h

theorem one_sub_one : (1 : EReal) - 1 = 0 := by
  rw [← EReal.coe_one, ← EReal.coe_sub, sub_self, EReal.coe_zero]

/-- Where a class's weight is its own bit, the reference's term is the logarithm the kernel takes: the weight is one or
    zero, and the other logarithm is multiplied by zero (no finiteness is needed: `x · 0 = 0` on the extended reals). -/
theorem term_plain (p : EReal) (b : BitVec 1) :
    Ideal.log (p + eps) * ind b + Ideal.log ((one - p) + eps) * (one - ind b) = Ideal.log (sel p b + eps) := by
  by_cases hb : b = 1#1
  · rw [ind_of_eq hb, sel, if_pos hb, one_eq, one_sub_one, mul_one, mul_zero, add_zero]
  · rw [ind_of_ne hb, sel, if_neg hb, one_eq, sub_zero, mul_one, mul_zero, zero_add]

/-- The logarithm of a positive real. -/
theorem log_pos_real {a : ℝ} (ha : 0 < a) : Ideal.log (a : EReal) = (Real.log a : EReal) := by
  rw [Ideal.log_coe, if_neg (not_le.mpr ha)]

/-- Class 0 at a pixel whose target is the largest less one, the score a real `p` with `a = p + ε` and
    `b = (1 − p) + ε` positive: the weight is the class's bit plus one, and `log (a / b) = log a − log b` makes the
    kernel's two logarithms the reference's `log a · w + log b · (1 − w)` — both sides one real number. -/
theorem term_zero_extra (p e : ℝ) (b : BitVec 1) (heps : eps = (e : EReal)) (ha : 0 < p + e) (hb : 0 < (1 - p) + e) :
    Ideal.log ((p : EReal) + eps) * (ind b + 1) + Ideal.log ((one - (p : EReal)) + eps) * (one - (ind b + 1))
      = Ideal.log (sel (p : EReal) b + eps)
          + 1 * Ideal.log (Ideal.div ((p : EReal) + eps) ((one - (p : EReal)) + eps)) := by
  have hA : (p : EReal) + (e : EReal) = ((p + e : ℝ) : EReal) := (EReal.coe_add _ _).symm
  have hB : ((1 : EReal) - (p : EReal)) + (e : EReal) = (((1 - p) + e : ℝ) : EReal) := by
    rw [← EReal.coe_one, ← EReal.coe_sub, ← EReal.coe_add]
  have hD : Ideal.log (Ideal.div ((p + e : ℝ) : EReal) (((1 - p) + e : ℝ) : EReal))
      = ((Real.log (p + e) - Real.log ((1 - p) + e) : ℝ) : EReal) := by
    rw [Ideal.div_coe hb.ne', ← EReal.coe_mul, mul_one_div, log_pos_real (div_pos ha hb),
      Real.log_div ha.ne' hb.ne']
  by_cases hb1 : b = 1#1
  · rw [ind_of_eq hb1, sel, if_pos hb1, heps, one_eq, hA, hB, hD, log_pos_real ha, log_pos_real hb, ← EReal.coe_one]
    simp only [← EReal.coe_add, ← EReal.coe_sub, ← EReal.coe_mul]
    exact congrArg _ (by ring)
  · rw [ind_of_ne hb1, sel, if_neg hb1, heps, one_eq, hA, hB, hD, log_pos_real ha, log_pos_real hb, ← EReal.coe_one,
      ← EReal.coe_zero]
    simp only [← EReal.coe_add, ← EReal.coe_sub, ← EReal.coe_mul]
    exact congrArg _ (by ring)

variable (X : Scores) (T : Targets) (tm : Fin 8 → BitVec 32)

/-- A class other than 0: the reference's term is the kernel's logarithm. -/
theorem llR_succ (n : Fin 8) (k : Fin 80) (hk : k ≠ 0) (y : Fin 385) (x : Fin 513) :
    llR X T tm n k y x = Ideal.log (sel (X (ix4 n k y x)) (leB k (T (ix3 n y x))) + eps) := by
  unfold llR wR
  rw [if_neg hk]
  exact term_plain _ _

/-- Class 0: the reference's term is the kernel's logarithm plus the kernel's correction. -/
theorem llR_zero (hD : Dom X) (n : Fin 8) (y : Fin 385) (x : Fin 513) :
    llR X T tm n 0 y x = Ideal.log (sel (X (ix4 n 0 y x)) (leB 0 (T (ix3 n y x))) + eps)
      + ind (exB (T (ix3 n y x)) (tm n))
          * Ideal.log (Ideal.div (X (ix4 n 0 y x) + eps) ((one - X (ix4 n 0 y x)) + eps)) := by
  unfold llR wR
  rw [if_pos rfl]
  by_cases hx : exB (T (ix3 n y x)) (tm n) = 1#1
  · obtain ⟨p, hp, ha, hb⟩ := hD (ix4 n 0 y x)
    obtain ⟨e, he⟩ := eps_real
    rw [ind_of_eq hx]
    rw [hp, he] at ha
    rw [hp, he, one_eq] at hb
    rw [hp]
    refine term_zero_extra p e _ he ?_ ?_
    · rw [← EReal.coe_add] at ha; exact_mod_cast ha
    · rw [← EReal.coe_one, ← EReal.coe_sub, ← EReal.coe_add] at hb; exact_mod_cast hb
  · rw [ind_of_ne hx, add_zero, zero_mul, add_zero]
    exact term_plain _ _

/-- At each pixel the kernel's value is the sum over the classes of the reference's terms: the correction added to the
    sum is the correction added to its class-0 term. -/
theorem pixK_eq (hD : Dom X) (n : Fin 8) (y : Fin 385) (x : Fin 513) :
    pixK X T tm n y x = ∑ k : Fin 80, llR X T tm n k y x := by
  unfold pixK
  rw [Fin.sum_univ_succ, Fin.sum_univ_succ (f := fun k => llR X T tm n k y x), llR_zero X T tm hD,
    Finset.sum_congr rfl fun (i : Fin 79) _ => llR_succ X T tm n i.succ (Fin.succ_ne_zero i) y x]
  exact add_right_comm _ _ _

/-! ## The two results -/

/-- A tile's row summed over its pixels: the image's row where it is one, zero past the last. -/
theorem sum_rowK (n : Fin 8) (h : Fin 7) (r : Fin 56) :
    ∑ x : Fin 513, rowK X T tm n h r x
      = if hv : 56 * h.val + r.val < 385 then ∑ x : Fin 513, pixK X T tm n ⟨56 * h.val + r.val, hv⟩ x else 0 := by
  by_cases hv : 56 * h.val + r.val < 385
  · rw [dif_pos hv]
    exact Finset.sum_congr rfl fun x _ => by unfold rowK; rw [dif_pos hv]
  · rw [dif_neg hv]
    exact Finset.sum_eq_zero fun x _ => by unfold rowK; rw [dif_neg hv]

/-- An image in the kernel: the seven tiles' shares added up from zero are the sum over all the image's pixels, over
    eighty. -/
theorem imgK_eq (n : Fin 8) :
    imgK X T tm n = (∑ y : Fin 385, ∑ x : Fin 513, pixK X T tm n y x) * r80 := by
  have ht : ∀ h : Fin 7, tileK X T tm n h
      = (∑ r : Fin 56, if hv : 56 * h.val + r.val < 385
          then ∑ x : Fin 513, pixK X T tm n ⟨56 * h.val + r.val, hv⟩ x else 0) * r80 := fun h => by
    unfold tileK
    rw [div_k80]
    simp only [sum_rowK]
  have hs : imgK X T tm n = ∑ h : Fin 7, tileK X T tm n h := by
    unfold imgK
    rw [Fin.sum_univ_seven, zero_add]
  rw [hs]
  simp only [ht]
  rw [← sum_mul_of_nonneg _ _ r80_nonneg r80_ne_top, sum_tiles (fun y => ∑ x : Fin 513, pixK X T tm n y x)]

/-- The kernel's result: minus the sum over all pixels, over eighty, over the pixel count. -/
theorem kernelVal_eq :
    kernelVal X T tm
      = -((∑ n : Fin 8, ∑ y : Fin 385, ∑ x : Fin 513, pixK X T tm n y x) * r80 * ((1 / 1580040 : ℝ) : EReal)) := by
  unfold kernelVal
  rw [div_cnt, zero_add, neg_mul]
  simp only [imgK_eq]
  rw [← sum_mul_of_nonneg _ _ r80_nonneg r80_ne_top]

/-- The reference's result, where the scores are in the domain: the same. -/
theorem refVal_eq (hD : Dom X) :
    refVal X T tm
      = -((∑ n : Fin 8, ∑ y : Fin 385, ∑ x : Fin 513, pixK X T tm n y x) * r80 * ((1 / 1580040 : ℝ) : EReal)) := by
  unfold refVal
  rw [div_cnt, zero_add]
  simp only [zero_add, div_k80]
  rw [← sum_mul_of_nonneg _ _ r80_nonneg r80_ne_top, sum_idx3]
  refine congrArg (fun s => -(s * r80 * ((1 / 1580040 : ℝ) : EReal))) ?_
  refine Finset.sum_congr rfl fun a _ => Finset.sum_congr rfl fun b _ => Finset.sum_congr rfl fun c _ => ?_
  exact (pixK_eq X T tm hD a b c).symm

theorem kernelVal_eq_refVal (X : Scores) (T : Targets) (tm : Fin 8 → BitVec 32) (h : Dom X) :
    kernelVal X T tm = refVal X T tm := by
  rw [kernelVal_eq, refVal_eq X T tm h]

end Cert.Spec

end
-- ==== Proof.Pre.lean ====
/-
  What the precondition says of the scores: each is a real number, and both logarithms' arguments are positive.

  The precondition is a conjunction of three statements over the whole array, each the conjunction over all entries
  of one comparison: |x| < +∞, x + ε > 0, and (1 − x) + ε > 0. A conjunction that holds gives each of its members;
  read at one entry, the first says that max x (−x) is below +∞, which rules out both infinities and leaves a real
  number, and the other two are the positivity of the two logarithms' arguments as they stand.
-/
import proofs.«405709_j67010079752779_3_alg».proof.Proof.Gen.Pre_finite_inputs
import proofs.«405709_j67010079752779_3_alg».proof.Proof.Spec
import Idealize.ShloMosaic.Lib.ReduceAll
import Idealize.ShloMosaic.Lib.StableHlo.Predicate
import Idealize.ShloMosaic.PureOps.Ideal.Laws

noncomputable section

namespace Cert.PreValue

open Idealize.ShloMosaic Idealize.ShloMosaic.ValueIdx

/-- The word with all exponent bits set, a clear sign and a zero fraction denotes +∞. -/
theorem ofBits_inf : Ideal.ofBits .f32 0x7F800000#32 = (⊤ : EReal) := by simp [Ideal.ofBits, Ideal.ieee]

/-- An extended real whose absolute value `max x (-x)` is below +∞ is a real number: at −∞ the negation is +∞, at +∞
    the number itself is. -/
theorem real_of_abs_lt_top (x : EReal) (hx : max x (-x) < ⊤) : ∃ p : ℝ, x = (p : EReal) := by
  induction x using EReal.rec with
  | bot => simp at hx
  | coe p => exact ⟨p, rfl⟩
  | top => simp at hx

/-- The bit of "less than" being one is the strict order. -/
theorem cmp_olt_eq_one {a b : EReal} (e : Ideal.cmp .olt a b = 1#1) : a < b :=
  of_decide_eq_true ((StableHlo.Predicate.ofBool_eq_one_iff (decide (a < b))).1 e)

/-- The bit of "greater than" being one is the strict order, read from the right. -/
theorem cmp_ogt_eq_one {a b : EReal} (e : Ideal.cmp .ogt a b = 1#1) : b < a :=
  of_decide_eq_true ((StableHlo.Predicate.ofBool_eq_one_iff (decide (b < a))).1 e)

theorem dom_of_pre [Cert.Pre_finite_inputs.Facts]
    (x0 : FVec Ideal Cert.Pre_finite_inputs.S8x80x385x513 .f32) (x1 : IVec Cert.Pre_finite_inputs.S8x385x513 32)
    (h : Cert.Pre_finite_inputs.fn (F := Ideal) x0 x1 = fun _ => 1#1) : Cert.Spec.Dom x0 := by
  -- the one entry of the rank-0 result, with the function's operations in view
  have h0 := congrFun h ValueIdx.ix0
  dsimp only [Cert.Pre_finite_inputs.fn, Cert.Pre_finite_inputs.fn_part1] at h0
  -- the three conjuncts
  obtain ⟨h12, h3⟩ := IntOp.andi_eq_one.1 h0
  obtain ⟨h1, h2⟩ := IntOp.andi_eq_one.1 h12
  intro i
  -- each conjunct at entry i: the result has no axes, so every entry reduces into its one index
  have e1 : Ideal.cmp .olt (max (x0 i) (-(x0 i))) (Ideal.ofBits .f32 0x7F800000#32) = 1#1 :=
    Host.reduce_andi_eq_one _ _ _ _ _ h1 i (funext fun d => d.elim0)
  have e2 : Ideal.cmp .ogt (x0 i + Ideal.ofBits .f32 0x2D2FEBFF#32) (Ideal.ofBits .f32 0x00000000#32) = 1#1 :=
    Host.reduce_andi_eq_one _ _ _ _ _ h2 i (funext fun d => d.elim0)
  have e3 : Ideal.cmp .ogt ((Ideal.ofBits .f32 0x3F800000#32 - x0 i) + Ideal.ofBits .f32 0x2D2FEBFF#32)
      (Ideal.ofBits .f32 0x00000000#32) = 1#1 :=
    Host.reduce_andi_eq_one _ _ _ _ _ h3 i (funext fun d => d.elim0)
  -- the comparisons as orders, against +∞ and against zero
  have f1 := cmp_olt_eq_one e1
  have f2 := cmp_ogt_eq_one e2
  have f3 := cmp_ogt_eq_one e3
  rw [ofBits_inf] at f1
  rw [Ideal.ofBits_zero_f32] at f2 f3
  obtain ⟨p, hp⟩ := real_of_abs_lt_top (x0 i) f1
  exact ⟨p, hp, f2, f3⟩

end Cert.PreValue

end
-- ==== Proof.lean ====
/-
  The certificate: the kernel's mean ordinal log-likelihood against the reference's.

  Eight images of 385 × 513 pixels, 80 scores per pixel and an integer target; an image's largest target decides at
  which pixels class 0 counts twice. The kernel walks each image in seven tiles of 56 rows, takes one logarithm per
  score — of the score where the class is at most the target, of one minus the score elsewhere —, folds the double
  count of class 0 into one logarithm of a ratio, masks the rows past the image's end, and adds the tiles' shares up in
  an accumulator it writes out at the image's last tile; the host adds the images, negates and divides by the pixel
  count. The reference weights the two logarithms of every score by the class's count and one minus it.

  The two agree, over the extended reals, where every score is a real number with both logarithms' arguments positive:
  the precondition says exactly that (finiteness, and the two arguments above zero). There the logarithm of the ratio is
  the difference of the logarithms; everything else — dividing a tile's sum or each pixel by eighty, the order of the
  sums, the rows that are masked — is regrouping that holds of all extended reals.

  The frames: each kernel program runs to its end from any memory and leaves its arguments as they were (for that
  nothing of the body's arithmetic is needed); the reference's run is the generated one. The kernel's idealization
  rewrote nothing.
-/
import proofs.«405709_j67010079752779_3_alg».proof.Defs
import proofs.«405709_j67010079752779_3_alg».proof.Proof.Gen.Kernel
import proofs.«405709_j67010079752779_3_alg».proof.Proof.Gen.KernelIdeal
import proofs.«405709_j67010079752779_3_alg».proof.Proof.Gen.ReferenceIdeal
import proofs.«405709_j67010079752779_3_alg».proof.Proof.Gen.ReferenceIdeal.Run
import proofs.«405709_j67010079752779_3_alg».proof.Proof.Gen.ReferenceIdeal.Read
import proofs.«405709_j67010079752779_3_alg».proof.Proof.Gen.Pre_finite_inputs
import proofs.«405709_j67010079752779_3_alg».proof.Proof.K.FrameRun
import proofs.«405709_j67010079752779_3_alg».proof.Proof.KI.FrameRun
import proofs.«405709_j67010079752779_3_alg».proof.Proof.KI.ValueRun
import proofs.«405709_j67010079752779_3_alg».proof.Proof.RefValue
import proofs.«405709_j67010079752779_3_alg».proof.Proof.Algebra
import proofs.«405709_j67010079752779_3_alg».proof.Proof.Pre
import Idealize.ShloMosaic.Adequacy
import Idealize.ShloMosaic.Init

noncomputable section

namespace Cert.Proof

open Idealize.ShloMosaic Idealize.ShloMosaic.TcCoe Idealize.ShloMosaic.ValueIdx Idealize.SL.Sem

/-- The table the region is entered with holds each image's largest target: the signed maximum over the image. -/
theorem table_eq (m : (ℓ : Loc Cert.KernelIdeal.nD Cert.KernelIdeal.τ Cert.KernelIdeal.sig) → Buf (Elt Ideal) ℓ) :
    Cert.KernelIdeal.Hand.tmW m
      = Cert.Spec.tmOf (m (((0 : Dev Cert.KernelIdeal.nD).tc : Thread Cert.KernelIdeal.nD Cert.KernelIdeal.τ).loc Cert.KernelIdeal.main_arg1))
          Cert.KernelIdeal.Facts₀.reducesTo_S8x385x513_S8_d1_2 Cert.KernelIdeal.Facts₀.h_S_ := by
  funext n
  unfold Cert.KernelIdeal.Hand.tmW Cert.Spec.tmOf
  refine congrFun ?_ (ix1 n)
  show Cert.KernelIdeal.Hand.V m 0 Cert.KernelIdeal.main_v0 = _
  unfold Cert.KernelIdeal.Hand.V Cert.KernelIdeal.Hand.V0
  simp only [Cert.KernelIdeal.Gen.hostOps0, List.flatten_cons, List.flatten_nil, List.append_nil]
  after_results

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs run; the kernel's result is the kernel formula of the arguments, the reference's the reference
    formula of the same arguments, and under the precondition the two formulas agree. -/
theorem algebraic : Cert.algebraic_KernelIdeal_ReferenceIdeal := by
  intro m ρ m' ρ' hpre hagree
  refine ⟨fun c => fun _ => Cert.Spec.kernelVal (Cert.KernelIdeal.Hand.Xs m c) (Cert.KernelIdeal.Hand.Ts m c) (Cert.KernelIdeal.Hand.tmW m),
    Cert.KernelIdeal.Hand.value m ρ, ?_⟩
  refine (θ_run Cert.ReferenceIdeal.defs _ _).mono (fun r h c => ⟨(h c).1.trans ?_, (h c).2⟩)
    (Cert.ReferenceIdeal.Value.run (F := Ideal) m' ρ')
  obtain rfl : c = 0 := Subsingleton.elim _ _
  refine (Cert.ReferenceIdeal.Read.val_main_v35_eq _ _).trans ((Cert.RefValue.ref_is_spec _ _).trans ?_)
  rw [(hagree 0).1, (hagree 0).2, table_eq m]
  funext _
  have hX : Cert.KernelIdeal.Hand.Xs m 0 = m (((0 : Dev Cert.KernelIdeal.nD).tc : Thread Cert.KernelIdeal.nD Cert.KernelIdeal.τ).loc Cert.KernelIdeal.main_arg0) :=
    Cert.KernelIdeal.Hand.V_main_arg0 m 0
  have hT : Cert.KernelIdeal.Hand.Ts m 0 = m (((0 : Dev Cert.KernelIdeal.nD).tc : Thread Cert.KernelIdeal.nD Cert.KernelIdeal.τ).loc Cert.KernelIdeal.main_arg1) :=
    Cert.KernelIdeal.Hand.V_main_arg1 m 0
  show _ = Cert.Spec.kernelVal (Cert.KernelIdeal.Hand.Xs m 0) (Cert.KernelIdeal.Hand.Ts m 0) _
  rw [hX, hT]
  exact (Cert.Spec.kernelVal_eq_refVal _ _ _ (Cert.PreValue.dom_of_pre _ _ (hpre 0))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
